-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S20000x3 : Shape := ⟨2, ![20000, 3]⟩
abbrev S256x512 : Shape := ⟨2, ![256, 512]⟩
abbrev S256 : Shape := ⟨1, ![256]⟩
abbrev S256x256 : Shape := ⟨2, ![256, 256]⟩
abbrev S768x256 : Shape := ⟨2, ![768, 256]⟩
abbrev S768 : Shape := ⟨1, ![768]⟩
abbrev S2x320000 : Shape := ⟨2, ![2, 320000]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x256 .f32) (main_arg8 : FVec F S768 .f32) (main_arg9 : FVec F S768 .f32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  main_v48

def fn_part1 {F : FTy → Type} [FloatOps F] (main_arg4 : FVec F S256 .f32) (main_arg5 : FVec F S256x256 .f32) (main_arg6 : FVec F S768x256 .f32) (main_arg7 : FVec F S768x256 .f32) (main_arg8 : FVec F S768 .f32) (main_arg9 : FVec F S768 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S20000x256 .f32) (main_arg1 : FVec F S20000x256 .f32) (main_arg2 : FVec F S20000x3 .f32) (main_arg3 : FVec F S256x512 .f32) (main_arg4 : FVec F S256 .f32) (main_arg5 : FVec F S256x256 .f32) (main_arg6 : FVec F S768x256 .f32) (main_arg7 : FVec F S768x256 .f32) (main_arg8 : FVec F S768 .f32) (main_arg9 : FVec F S768 .f32) (main_arg10 : IVec S2x320000 32) (main_arg11 : IVec S2x320000 32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S20000x3 .f32 := Host.absf main_arg2
  let main_cst_2 : FVec F S_ .f32 := constant S_ .f32 0x7F800000#32
  let main_v10 : FVec F S20000x3 .f32 := broadcastInDim S20000x3 ![] bcast_S_S20000x3 main_cst_2
  let main_v11 : IVec S20000x3 1 := cmpf .olt main_v9 main_v10
  let main_c_3 : IVec S_ 1 := constantI S_ 1 1#1
  let main_v12 : IVec S_ 1 := (fun x v => Host.reduce IntOp.andi x v reducesTo_S20000x3_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_arg9 main_v13 main_v16
-- ==== Kernel.lean ====
abbrev S20000x256 : Shape := ⟨2, ![20000, 256]⟩
abbrev S20000x3 : Shape := ⟨2, ![20000, 3]⟩
abbrev S256x512 : Shape := ⟨2, ![256, 512]⟩
abbrev S256 : Shape := ⟨1, ![256]⟩
abbrev S256x256 : Shape := ⟨2, ![256, 256]⟩
abbrev S768x256 : Shape := ⟨2, ![768, 256]⟩
abbrev S768 : Shape := ⟨1, ![768]⟩
abbrev S2x320000 : Shape := ⟨2, ![2, 320000]⟩
abbrev S512x256 : Shape := ⟨2, ![512, 256]⟩
abbrev S1x256 : Shape := ⟨2, ![1, 256]⟩
abbrev S256x768 : Shape := ⟨2, ![256, 768]⟩
abbrev S1x768 : Shape := ⟨2, ![1, 768]⟩
abbrev S1000x256 : Shape := ⟨2, ![1000, 256]⟩
abbrev S1000x512 : Shape := ⟨2, ![1000, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1000x768 : Shape := ⟨2, ![1000, 768]⟩

abbrev nBuf : Space → Nat
  | .hbm => 38
  | .vmem => 21
  | .smem => 0
  | _ => 0

abbrev bufTy : (tb : Table) → Fin (tcTables nBuf tb) → BufTy
  | .hbm, ⟨0, _⟩ => ⟨S20000x256, .f32⟩
  | .hbm, ⟨1, _⟩ => ⟨S20000x256, .f32⟩
  | .hbm, ⟨2, _⟩ => ⟨S20000x3, .f32⟩
  | .hbm, ⟨3, _⟩ => ⟨S256x512, .f32⟩
  | .hbm, ⟨4, _⟩ => ⟨S256, .f32⟩
  | .hbm, ⟨5, _⟩ => ⟨S256x256, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S2x320000, .i32⟩
  | .hbm, ⟨11, _⟩ => ⟨S2x320000, .i32⟩
  | .hbm, ⟨12, _⟩ => ⟨S512x256, .f32⟩
  | .hbm, ⟨13, _⟩ => ⟨S1x256, .f32⟩
  | .hbm, ⟨14, _⟩ => ⟨S256x768, .f32⟩
  | .hbm, ⟨15, _⟩ => ⟨S256x768, .f32⟩
  | .hbm, ⟨16, _⟩ => ⟨S1x768, .f32⟩
  | .hbm, ⟨17, _⟩ => ⟨S1x768, .f32⟩
  | .hbm, ⟨18, _⟩ => ⟨S20000x256, .f32⟩
  | .hbm, ⟨19, _⟩ => ⟨S20000x256, .f32⟩
  | .hbm, ⟨20, _⟩ => ⟨S1x320000, .i32⟩
  | .hbm, ⟨21, _⟩ => ⟨S320000, .i32⟩
  | .hbm, ⟨22, _⟩ => ⟨S1x320000, .i32⟩
  | .hbm, ⟨23, _⟩ => ⟨S320000, .i32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S_, .f32⟩
  | .hbm, ⟨34, _⟩ => ⟨S20000x256, .f32⟩
  | .hbm, ⟨35, _⟩ => ⟨S320000x1, .i32⟩
  | .hbm, ⟨36, _⟩ => ⟨S20000x256, .f32⟩
  | .hbm, ⟨37, _⟩ => ⟨S20000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S512x256, .f32⟩
  | .local _ .vmem, ⟨5, _⟩ => ⟨S1x256, .f32⟩
  | .local _ .vmem, ⟨6, _⟩ => ⟨S256x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S256x768, .f32⟩
  | .local _ .vmem, ⟨16, _⟩ => ⟨S256x768, .f32⟩
  | .local _ .vmem, ⟨17, _⟩ => ⟨S1x768, .f32⟩
  | .local _ .vmem, ⟨18, _⟩ => ⟨S1x768, .f32⟩
  | .local _ .vmem, ⟨19, _⟩ => ⟨S1000x256, .f32⟩
  | .local _ .vmem, ⟨20, _⟩ => ⟨S1000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S256x512_S512x256_1_0 : S256x512.Transposes [1, 0] S512x256
  shapeCasts_S256_S1x256 : S256.ShapeCasts S1x256
  transposes_S768x256_S256x768_1_0 : S768x256.Transposes [1, 0] S256x768
  shapeCasts_S768_S1x768 : S768.ShapeCasts S1x768
  inb_S1000x256_S1000x256_0_0 : ∀ a, (![0, 0] : Fin 2 → Nat) a + S1000x256.size a ≤ S1000x256.size a
  h_S1000x256 : 0 < S1000x256.numel
  concatenates_S1000x256_S1000x256_S1000x512_d1 : Shape.Concatenates [S1000x256, S1000x256] S1000x512 1
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  shapeCasts_S1000x256_S1000x256 : S1000x256.ShapeCasts S1000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  dot_S1000x512_S512x256_S1000x256_1_0_0_1_n_n_wf : DotDims.WF S1000x512 S512x256 S1000x256 [1] [0] [0] [1] [] []
  dot_S1000x256_S256x256_S1000x256_1_0_0_1_n_n_wf : DotDims.WF S1000x256 S256x256 S1000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S20000x256.size a
  hwx0_0 : ∀ i : grid0.Coords, EltTy.bits .f32 = 32 ∨ (Rect.block (s := S20000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S20000x256.size a
  hwx0_1 : ∀ i : grid0.Coords, EltTy.bits .f32 = 32 ∨ (Rect.block (s := S20000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S20000x256.size a
  hwx0_5 : ∀ i : grid0.Coords, EltTy.bits .f32 = 32 ∨ (Rect.block (s := S20000x256) S1000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S20000x256.size a
  hwx0_6 : ∀ i : grid0.Coords, EltTy.bits .f32 = 32 ∨ (Rect.block (s := S20000x256) S1000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S20000x256.size a
  hwx1_0 : ∀ i : grid1.Coords, EltTy.bits .f32 = 32 ∨ (Rect.block (s := S20000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S20000x256.size a
  hwx1_1 : ∀ i : grid1.Coords, EltTy.bits .f32 = 32 ∨ (Rect.block (s := S20000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S256x768.size a
  hwx1_2 : ∀ i : grid1.Coords, EltTy.bits .f32 = 32 ∨ (Rect.block (s := S256x768) S256x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x768.size a ≤ S256x768.size a
  hwx1_3 : ∀ i : grid1.Coords, EltTy.bits .f32 = 32 ∨ (Rect.block (s := S256x768) S256x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S20000x256.size a
  hwx1_6 : ∀ i : grid1.Coords, EltTy.bits .f32 = 32 ∨ (Rect.block (s := S20000x256) S1000x256.size (cc1_transform_6 i) (hinb1_6 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_arg1) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x256 : Shape := ⟨2, ![20000, 256]⟩
abbrev S20000x3 : Shape := ⟨2, ![20000, 3]⟩
abbrev S256x512 : Shape := ⟨2, ![256, 512]⟩
abbrev S256 : Shape := ⟨1, ![256]⟩
abbrev S256x256 : Shape := ⟨2, ![256, 256]⟩
abbrev S768x256 : Shape := ⟨2, ![768, 256]⟩
abbrev S768 : Shape := ⟨1, ![768]⟩
abbrev S2x320000 : Shape := ⟨2, ![2, 320000]⟩
abbrev S20000x512 : Shape := ⟨2, ![20000, 512]⟩
abbrev S512x256 : Shape := ⟨2, ![512, 256]⟩
abbrev S1x256 : Shape := ⟨2, ![1, 256]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S320000x256 : Shape := ⟨2, ![320000, 256]⟩
abbrev S256x768 : Shape := ⟨2, ![256, 768]⟩
abbrev S20000x768 : Shape := ⟨2, ![20000, 768]⟩
abbrev S1x768 : Shape := ⟨2, ![1, 768]⟩

abbrev nBuf : Space → Nat
  | .hbm => 82
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S20000x256, .f32⟩
  | .hbm, ⟨2, _⟩ => ⟨S20000x3, .f32⟩
  | .hbm, ⟨3, _⟩ => ⟨S256x512, .f32⟩
  | .hbm, ⟨4, _⟩ => ⟨S256, .f32⟩
  | .hbm, ⟨5, _⟩ => ⟨S256x256, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S2x320000, .i32⟩
  | .hbm, ⟨11, _⟩ => ⟨S2x320000, .i32⟩
  | .hbm, ⟨12, _⟩ => ⟨S20000x512, .f32⟩
  | .hbm, ⟨13, _⟩ => ⟨S512x256, .f32⟩
  | .hbm, ⟨14, _⟩ => ⟨S20000x256, .f32⟩
  | .hbm, ⟨15, _⟩ => ⟨S1x256, .f32⟩
  | .hbm, ⟨16, _⟩ => ⟨S20000x256, .f32⟩
  | .hbm, ⟨17, _⟩ => ⟨S20000x256, .f32⟩
  | .hbm, ⟨18, _⟩ => ⟨S_, .f32⟩
  | .hbm, ⟨19, _⟩ => ⟨S20000x256, .f32⟩
  | .hbm, ⟨20, _⟩ => ⟨S20000x256, .f32⟩
  | .hbm, ⟨21, _⟩ => ⟨S20000x256, .f32⟩
  | .hbm, ⟨22, _⟩ => ⟨S1x320000, .i32⟩
  | .hbm, ⟨23, _⟩ => ⟨S320000, .i32⟩
  | .hbm, ⟨24, _⟩ => ⟨S1x320000, .i32⟩
  | .hbm, ⟨25, _⟩ => ⟨S320000, .i32⟩
  | .hbm, ⟨26, _⟩ => ⟨S_, .i32⟩
  | .hbm, ⟨27, _⟩ => ⟨S320000, .i32⟩
  | .hbm, ⟨28, _⟩ => ⟨S320000, .i1⟩
  | .hbm, ⟨29, _⟩ => ⟨S_, .i32⟩
  | .hbm, ⟨30, _⟩ => ⟨S320000, .i32⟩
  | .hbm, ⟨31, _⟩ => ⟨S320000, .i32⟩
  | .hbm, ⟨32, _⟩ => ⟨S320000, .i32⟩
  | .hbm, ⟨33, _⟩ => ⟨S320000x1, .i32⟩
  | .hbm, ⟨34, _⟩ => ⟨S320000x256, .f32⟩
  | .hbm, ⟨35, _⟩ => ⟨S_, .f32⟩
  | .hbm, ⟨36, _⟩ => ⟨S20000x256, .f32⟩
  | .hbm, ⟨37, _⟩ => ⟨S320000x1, .i32⟩
  | .hbm, ⟨38, _⟩ => ⟨S20000x256, .f32⟩
  | .hbm, ⟨39, _⟩ => ⟨S256x768, .f32⟩
  | .hbm, ⟨40, _⟩ => ⟨S20000x768, .f32⟩
  | .hbm, ⟨41, _⟩ => ⟨S1x768, .f32⟩
  | .hbm, ⟨42, _⟩ => ⟨S20000x768, .f32⟩
  | .hbm, ⟨43, _⟩ => ⟨S20000x768, .f32⟩
  | .hbm, ⟨44, _⟩ => ⟨S256x768, .f32⟩
  | .hbm, ⟨45, _⟩ => ⟨S20000x768, .f32⟩
  | .hbm, ⟨46, _⟩ => ⟨S1x768, .f32⟩
  | .hbm, ⟨47, _⟩ => ⟨S20000x768, .f32⟩
  | .hbm, ⟨48, _⟩ => ⟨S20000x768, .f32⟩
  | .hbm, ⟨49, _⟩ => ⟨S20000x256, .f32⟩
  | .hbm, ⟨50, _⟩ => ⟨S20000x256, .f32⟩
  | .hbm, ⟨51, _⟩ => ⟨S20000x256, .f32⟩
  | .hbm, ⟨52, _⟩ => ⟨S20000x256, .f32⟩
  | .hbm, ⟨53, _⟩ => ⟨S20000x256, .f32⟩
  | .hbm, ⟨54, _⟩ => ⟨S20000x256, .f32⟩
  | .hbm, ⟨55, _⟩ => ⟨S20000x256, .f32⟩
  | .hbm, ⟨56, _⟩ => ⟨S20000x256, .f32⟩
  | .hbm, ⟨57, _⟩ => ⟨S20000x256, .f32⟩
  | .hbm, ⟨58, _⟩ => ⟨S_, .f32⟩
  | .hbm, ⟨59, _⟩ => ⟨S20000x256, .f32⟩
  | .hbm, ⟨60, _⟩ => ⟨S20000x256, .f32⟩
  | .hbm, ⟨61, _⟩ => ⟨S_, .f32⟩
  | .hbm, ⟨62, _⟩ => ⟨S20000x256, .f32⟩
  | .hbm, ⟨63, _⟩ => ⟨S20000x256, .f32⟩
  | .hbm, ⟨64, _⟩ => ⟨S20000x256, .f32⟩
  | .hbm, ⟨65, _⟩ => ⟨S20000x256, .f32⟩
  | .hbm, ⟨66, _⟩ => ⟨S20000x256, .f32⟩
  | .hbm, ⟨67, _⟩ => ⟨S_, .f32⟩
  | .hbm, ⟨68, _⟩ => ⟨S20000x256, .f32⟩
  | .hbm, ⟨69, _⟩ => ⟨S20000x256, .f32⟩
  | .hbm, ⟨70, _⟩ => ⟨S_, .f32⟩
  | .hbm, ⟨71, _⟩ => ⟨S20000x256, .f32⟩
  | .hbm, ⟨72, _⟩ => ⟨S20000x256, .f32⟩
  | .hbm, ⟨73, _⟩ => ⟨S20000x256, .f32⟩
  | .hbm, ⟨74, _⟩ => ⟨S20000x256, .f32⟩
  | .hbm, ⟨75, _⟩ => ⟨S20000x256, .f32⟩
  | .hbm, ⟨76, _⟩ => ⟨S_, .f32⟩
  | .hbm, ⟨77, _⟩ => ⟨S20000x256, .f32⟩
  | .hbm, ⟨78, _⟩ => ⟨S20000x256, .f32⟩
  | .hbm, ⟨79, _⟩ => ⟨S20000x256, .f32⟩
  | .hbm, ⟨80, _⟩ => ⟨S20000x256, .f32⟩
  | .hbm, ⟨81, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  concatenates_S20000x256_S20000x256_S20000x512_d1 : Shape.Concatenates [S20000x256, S20000x256] S20000x512 1
  transposes_S256x512_S512x256_1_0 : S256x512.Transposes [1, 0] S512x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  transposes_S768x256_S256x768_1_0 : S768x256.Transposes [1, 0] S256x768
  bcast_S768_S1x768_1 : S768.BroadcastsInDim S1x768 (![1] : Fin 1 → Fin S1x768.rank)
  bcast_S1x768_S20000x768_0_1 : S1x768.BroadcastsInDim S20000x768 (![0, 1] : Fin 2 → Fin S20000x768.rank)
  slices_S20000x768_S20000x256_0_0 : S20000x768.Slices ![0, 0] S20000x256
  slices_S20000x768_S20000x256_0_256 : S20000x768.Slices ![0, 256] S20000x256
  slices_S20000x768_S20000x256_0_512 : S20000x768.Slices ![0, 512] S20000x256
  dot_S20000x512_S512x256_S20000x256_1_0_0_1_n_n_wf : DotDims.WF S20000x512 S512x256 S20000x256 [1] [0] [0] [1] [] []
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x768_S20000x768_1_0_0_1_n_n_wf : DotDims.WF S20000x256 S256x768 S20000x768 [1] [0] [0] [1] [] []

variable [Facts₀]

def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x768_S20000x768_1_0_0_1_n_n : DotDims S20000x256 S256x768 S20000x768 where
  lhsContracting := [1]
  rhsContracting := [0]
  lhsNonContracting := [0]
  rhsNonContracting := [1]
  lhsBatch := []
  rhsBatch := []
  wf := dot_S20000x256_S256x768_S20000x768_1_0_0_1_n_n_wf

class Facts : Prop extends Facts₀ where

variable [Facts]
-- ==== Proof.Spec.lean ====
/-
  The graph-convolution GRU cell, entry by entry, over the extended reals.

  For N = 20000 nodes with 256 features: the node's input row x_P and its state row h_P are joined into one row of
  512 entries; a fully connected layer with weights W (256 × 512) and bias b followed by a rectifier gives the hidden
  row xr_P; the message row is m_P = xr_P · C for the 256 × 256 convolution weights C. The messages are summed along the
  graph's edges into an aggregate row a_P (that step is the same operation in both programs and stays a parameter
  here). A GRU cell with input a_P and state xr_P then gives the new state: with gi = a_P · Wiᵀ + bi and
  gh = xr_P · Whᵀ + bh, each of 768 entries read as three consecutive groups of 256,
      r = σ(gi₀ + gh₀),   z = σ(gi₁ + gh₁),   n = tanh(gi₂ + r · gh₂),   h' = (1 − z) · n + z · xr_P.
  Every quantity is a function of a node P and a feature q; matrices are curried functions of their two indices.
-/
import Idealize.ShloMosaic.PureOps.Ideal
import Idealize.ShloMosaic.Lib.ValueIdx

noncomputable section

namespace ConvGru

open Idealize.ShloMosaic Idealize.ShloMosaic.ValueIdx

/-- A rank-2 array as a function of its row and its column. -/
abbrev mat {A B : Nat} (a : (⟨2, ![A, B]⟩ : Shape).Idx → EReal) : Fin A → Fin B → EReal := fun p q => a (ix2 p q)
/-- The same array read transposed: as a function of its column and its row. -/
abbrev matT {A B : Nat} (a : (⟨2, ![A, B]⟩ : Shape).Idx → EReal) : Fin B → Fin A → EReal := fun q p => a (ix2 p q)
/-- A rank-1 array as a function of its coordinate. -/
abbrev vec {A : Nat} (a : (⟨1, ![A]⟩ : Shape).Idx → EReal) : Fin A → EReal := fun p => a (ix1 p)
/-- A one-row matrix as a function of its column. -/
abbrev row {A : Nat} (a : (⟨2, ![1, A]⟩ : Shape).Idx → EReal) : Fin A → EReal := fun p => a (ix2 0 p)
/-- A function of a row and a column as a rank-2 array. -/
abbrev toArr {A B : Nat} (f : Fin A → Fin B → EReal) : (⟨2, ![A, B]⟩ : Shape).Idx → EReal := fun i => f (i 0) (i 1)

/-- Reading an array made from a function at a row and a column gives the function back. -/
theorem mat_toArr {A B : Nat} (f : Fin A → Fin B → EReal) : mat (toArr f) = f := rfl
/-- An array is the array of its own entries. -/
theorem toArr_mat {A B : Nat} (a : (⟨2, ![A, B]⟩ : Shape).Idx → EReal) : toArr (mat a) = a :=
  funext fun i => congrArg a (eq_ix2 i).symm

/-- Entry `k` of the joined row (x_P | h_P): the first 256 entries are x's, the last 256 are h's. -/
def joined (X H : Fin 20000 → Fin 256 → EReal) (P : Fin 20000) (k : Fin 512) : EReal :=
  if h : k.val < 256 then X P ⟨k.val, h⟩ else H P ⟨k.val - 256, by omega⟩

/-- The hidden row: the rectified fully connected layer, `max (∑ₖ (x_P | h_P)ₖ · W[q, k] + b[q], 0)`. The zero of the
    rectifier is kept as the word both programs write. -/
def hidden (X H : Fin 20000 → Fin 256 → EReal) (W : Fin 256 → Fin 512 → EReal) (b : Fin 256 → EReal)
    (P : Fin 20000) (q : Fin 256) : EReal :=
  max ((∑ k : Fin 512, joined X H P k * W q k) + b q) (Ideal.ofBits .f32 0x00000000#32)

/-- The message row: `∑ₖ xr[P, k] · C[k, q]`. -/
def message (R : Fin 20000 → Fin 256 → EReal) (C : Fin 256 → Fin 256 → EReal) (P : Fin 20000) (q : Fin 256) : EReal :=
  ∑ k : Fin 256, R P k * C k q

/-- A gate pre-activation row: `∑ₖ A[P, k] · W[j, k] + b[j]` for `j` among the 768 stacked gate entries. -/
def gates (A : Fin 20000 → Fin 256 → EReal) (W : Fin 768 → Fin 256 → EReal) (b : Fin 768 → EReal)
    (P : Fin 20000) (j : Fin 768) : EReal :=
  (∑ k : Fin 256, A P k * W j k) + b j

/-- The reset gate's, the update gate's and the candidate's entry `q` among the 768 stacked ones. -/
def g0 (q : Fin 256) : Fin 768 := ⟨q.val, by omega⟩
def g1 (q : Fin 256) : Fin 768 := ⟨q.val + 256, by omega⟩
def g2 (q : Fin 256) : Fin 768 := ⟨q.val + 512, by omega⟩

/-- The GRU update of the state row `R` from the two gate rows: `(1 − z) · n + z · R`, the one kept as the word both
    programs write. -/
def update (gi gh : Fin 20000 → Fin 768 → EReal) (R : Fin 20000 → Fin 256 → EReal) (P : Fin 20000) (q : Fin 256) : EReal :=
  (Ideal.ofBits .f32 0x3F800000#32 - Ideal.logistic (gi P (g1 q) + gh P (g1 q)))
      * Ideal.tanh (gi P (g2 q) + Ideal.logistic (gi P (g0 q) + gh P (g0 q)) * gh P (g2 q))
    + Ideal.logistic (gi P (g1 q) + gh P (g1 q)) * R P q

/-- The whole cell from the aggregate `A` of the messages: the new state's entry at node `P`, feature `q`. -/
def cell (X H : Fin 20000 → Fin 256 → EReal) (W : Fin 256 → Fin 512 → EReal) (b : Fin 256 → EReal)
    (A : Fin 20000 → Fin 256 → EReal) (Wi Wh : Fin 768 → Fin 256 → EReal) (bi bh : Fin 768 → EReal)
    (P : Fin 20000) (q : Fin 256) : EReal :=
  update (gates A Wi bi) (gates (hidden X H W b) Wh bh) (hidden X H W b) P q

end ConvGru

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.FcConvValue.lean ====
/-
  The first kernel region, read as values: over row blocks of 1000 nodes it writes the hidden rows and the message rows.
-/
import proofs.«178014_j40346922778954_1_alg».proof.Proof.Gen.KernelIdeal.Frame
import proofs.«178014_j40346922778954_1_alg».proof.Proof.Spec
import proofs.«178014_j40346922778954_1_alg».proof.Proof.LibMatmulAt
import Idealize.ShloMosaic.Lib.Pipeline.Value
set_option maxRecDepth 16384

noncomputable section

namespace Cert.KernelIdeal.FcConv

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The two matrix products: where their dimension numbers read the operands

Both products contract the left operand's second axis with the right operand's first and have no batch axis, so the
left operand is read at (row, k) and the right at (k, column). -/

theorem fc_lhs_row (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem fc_lhs_contr (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
theorem fc_rhs_contr (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
theorem fc_rhs_col (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

theorem conv_lhs_row (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem conv_lhs_contr (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem conv_rhs_contr (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem conv_rhs_col (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- Entry (p, q) of the fully connected layer's product into zero: the sum over the 512 joined entries. -/
theorem fc_product_at (l : FVec Ideal S1000x512 .bf16) (r : FVec Ideal S512x256 .bf16) (p : Fin 1000) (q : Fin 256) :
    matmul dot_S1000x512_S512x256_S1000x256_1_0_0_1_n_n none l r (constant (F := Ideal) S1000x256 .f32 0x00000000#32) (ix2 p q)
      = ∑ k : Fin 512, l (ix2 p k) * r (ix2 k q) :=
  MatmulAt.matmul_zero_at dot_S1000x512_S512x256_S1000x256_1_0_0_1_n_n rfl rfl fc_lhs_row fc_lhs_contr fc_rhs_contr fc_rhs_col none l r p q

/-- Entry (p, q) of the convolution's product into zero: the sum over the 256 hidden entries. -/
theorem conv_product_at (l : FVec Ideal S1000x256 .bf16) (r : FVec Ideal S256x256 .bf16) (p : Fin 1000) (q : Fin 256) :
    matmul dot_S1000x256_S256x256_S1000x256_1_0_0_1_n_n none l r (constant (F := Ideal) S1000x256 .f32 0x00000000#32) (ix2 p q)
      = ∑ k : Fin 256, l (ix2 p k) * r (ix2 k q) :=
  MatmulAt.matmul_zero_at dot_S1000x256_S256x256_S1000x256_1_0_0_1_n_n rfl rfl conv_lhs_row conv_lhs_contr conv_rhs_contr conv_rhs_col none l r p q

/-! ## The body's two results at an entry of a block -/

/-- Entry (p, k) of two 256-column blocks joined along the columns: the first block's for k < 256, the second's after. -/
theorem joined_block_at (x0 x1 : Vec Ideal S1000x256 .f32) (h : Shape.Concatenates [S1000x256, S1000x256] S1000x512 1)
    (p : Fin 1000) (k : Fin 512) :
    concatenate S1000x512 1 [⟨S1000x256, x0⟩, ⟨S1000x256, x1⟩] h (ix2 p k)
      = if hk : k.val < 256 then x0 (ix2 p ⟨k.val, hk⟩) else x1 (ix2 p ⟨k.val - 256, by omega⟩) := by
  split
  · next hk =>
    exact concatenate_pair_apply_left (t := S1000x512) (s₁ := S1000x256) (s₂ := S1000x256) (1 : Fin 2) x0 x1 h (ix2 p k) rfl
      (ix2 p ⟨k.val, hk⟩) (fun b => match b with
        | ⟨0, _⟩ => rfl
        | ⟨1, _⟩ => rfl)
  · next hk =>
    exact concatenate_pair_apply_right (t := S1000x512) (s₁ := S1000x256) (s₂ := S1000x256) (1 : Fin 2) x0 x1 h (ix2 p k) rfl rfl
      (ix2 p ⟨k.val - 256, by omega⟩) (fun b hb => match b, hb with
        | ⟨0, _⟩, _ => rfl
        | ⟨1, _⟩, hb => absurd rfl hb)
      (by show k.val - 256 + 256 = k.val; omega)

/-- A one-row matrix spread over 1000 rows reads its column at every row. -/
theorem bias_rows_at (x : Vec Ideal S1x256 .f32) (h : S1x256.Broadcasts S1000x256) (p : Fin 1000) (q : Fin 256) :
    broadcastTo S1000x256 x h (ix2 p q) = x (ix2 0 q) :=
  broadcastTo_apply x h (ix2 p q) (ix2 0 q) (fun a => match a with
    | ⟨0, _⟩ => rfl
    | ⟨1, _⟩ => rfl)

/-- The hidden block at an entry: the rectified sum over the joined row of the two input blocks against the weight
    block's column, plus the bias. -/
theorem hidden_block_at (x0 x1 : Vec Ideal S1000x256 .f32) (x2 : Vec Ideal S512x256 .f32) (x3 : Vec Ideal S1x256 .f32)
    (p : Fin 1000) (q : Fin 256) :
    k0_pay1 (F := Ideal) x0 x1 x2 x3 (ix2 p q)
      = max ((∑ k : Fin 512, (if hk : k.val < 256 then x0 (ix2 p ⟨k.val, hk⟩) else x1 (ix2 p ⟨k.val - 256, by omega⟩))
            * x2 (ix2 k q)) + x3 (ix2 0 q)) (Ideal.ofBits .f32 0x00000000#32) := by
  unfold k0_pay1
  rw [maximumf_apply, addf_apply, broadcast_apply, fc_product_at, bias_rows_at, shapeCast_self x3]
  refine congrArg₂ max (congrArg₂ (· + ·) (Finset.sum_congr rfl fun k _ => ?_) rfl) rfl
  rw [truncf_apply, truncf_apply, shapeCast_self x2, joined_block_at]

/-- The message block at an entry: the sum over the hidden block's row against the convolution weights' column. -/
theorem message_block_at (x0 x1 : Vec Ideal S1000x256 .f32) (x2 : Vec Ideal S512x256 .f32) (x3 : Vec Ideal S1x256 .f32)
    (x4 : Vec Ideal S256x256 .f32) (p : Fin 1000) (q : Fin 256) :
    k0_pay2 (F := Ideal) x0 x1 x2 x3 x4 (ix2 p q) = ∑ k : Fin 256, k0_pay1 (F := Ideal) x0 x1 x2 x3 (ix2 p k) * x4 (ix2 k q) := by
  unfold k0_pay2
  rw [conv_product_at]
  refine Finset.sum_congr rfl fun k _ => ?_
  rw [truncf_apply, truncf_apply]

variable (V : (c : Dev nD) → (b : Ref sig .tc) → Buf (Elt Ideal) ((c : Thread nD τ).loc b))

/-! ## The blocks of the operand arrays

At point t the four row-blocked windows (the two inputs, the two results) sit at block (t, 0) of their 20000 × 256
arrays, so row p of such a block is row 1000 t + p of the array; the three weight windows sit at block (0, 0) of arrays
they span whole. -/

theorem zeros2 : (![0, 0] : Fin 2 → Nat) = fun _ => 0 := funext fun a => by fin_cases a <;> rfl

/-- The windows' block indices at each of the 20 grid points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of the input block at point t is row 1000 t + p of the input array. -/
theorem x_block_at (c : Dev nD) (t : Fin cfg0.N) (p : Fin 1000) (k : Fin 256) (P : Fin 20000)
    (hP : P.val = t.val * 1000 + p.val) : iblk0 V c 0 t (ix2 p k) = V c main_arg1 (ix2 P k) := by
  obtain ⟨e0, e1, -⟩ := block_index t
  show V c main_arg1 (((cfg0.win 0).blk t).view.emb (ix2 p k)) = V c main_arg1 (ix2 P k)
  refine congrArg (V c main_arg1) (funext fun a => Fin.ext ?_)
  match a with
  | ⟨0, _⟩ => show win0_0.index t (0 : Fin 2) * 1000 + 1 * p.val = P.val; omega
  | ⟨1, _⟩ => show win0_0.index t (1 : Fin 2) * 256 + 1 * k.val = k.val; omega

/-- Row p of the state block at point t is row 1000 t + p of the state array. -/
theorem h_block_at (c : Dev nD) (t : Fin cfg0.N) (p : Fin 1000) (k : Fin 256) (P : Fin 20000)
    (hP : P.val = t.val * 1000 + p.val) : iblk0 V c 1 t (ix2 p k) = V c main_arg0 (ix2 P k) := by
  obtain ⟨-, -, e0, e1, -⟩ := block_index t
  show V c main_arg0 (((cfg0.win 1).blk t).view.emb (ix2 p k)) = V c main_arg0 (ix2 P k)
  refine congrArg (V c main_arg0) (funext fun a => Fin.ext ?_)
  match a with
  | ⟨0, _⟩ => show win0_1.index t (0 : Fin 2) * 1000 + 1 * p.val = P.val; omega
  | ⟨1, _⟩ => show win0_1.index t (1 : Fin 2) * 256 + 1 * k.val = k.val; omega

/-- The fully connected layer's weight block is its whole array at every point. -/
theorem w_block_at (c : Dev nD) (t : Fin cfg0.N) (k : Fin 512) (q : Fin 256) :
    iblk0 V c 2 t (ix2 k q) = V c main_v0 (ix2 k q) := by
  obtain ⟨-, -, -, -, e0, e1, -⟩ := block_index t
  show V c main_v0 (((cfg0.win 2).blk t).view.emb (ix2 k q)) = V c main_v0 (ix2 k q)
  refine congrArg (V c main_v0) (funext fun a => Fin.ext ?_)
  match a with
  | ⟨0, _⟩ => show win0_2.index t (0 : Fin 2) * 512 + 1 * k.val = k.val; omega
  | ⟨1, _⟩ => show win0_2.index t (1 : Fin 2) * 256 + 1 * q.val = q.val; omega

/-- The bias block is its whole one-row array at every point. -/
theorem b_block_at (c : Dev nD) (t : Fin cfg0.N) (q : Fin 256) :
    iblk0 V c 3 t (ix2 0 q) = V c main_v1 (ix2 0 q) := by
  obtain ⟨-, -, -, -, -, -, e0, e1, -⟩ := block_index t
  show V c main_v1 (((cfg0.win 3).blk t).view.emb (ix2 0 q)) = V c main_v1 (ix2 0 q)
  refine congrArg (V c main_v1) (funext fun a => Fin.ext ?_)
  match a with
  | ⟨0, _⟩ => show win0_3.index t (0 : Fin 2) * 1 + 1 * 0 = 0; omega
  | ⟨1, _⟩ => show win0_3.index t (1 : Fin 2) * 256 + 1 * q.val = q.val; omega

/-- The convolution weights' block is its whole array at every point. -/
theorem c_block_at (c : Dev nD) (t : Fin cfg0.N) (k : Fin 256) (q : Fin 256) :
    iblk0 V c 4 t (ix2 k q) = V c main_arg5 (ix2 k q) := by
  obtain ⟨-, -, -, -, -, -, -, -, e0, e1, -⟩ := block_index t
  show V c main_arg5 (((cfg0.win 4).blk t).view.emb (ix2 k q)) = V c main_arg5 (ix2 k q)
  refine congrArg (V c main_arg5) (funext fun a => Fin.ext ?_)
  match a with
  | ⟨0, _⟩ => show win0_4.index t (0 : Fin 2) * 256 + 1 * k.val = k.val; omega
  | ⟨1, _⟩ => show win0_4.index t (1 : Fin 2) * 256 + 1 * q.val = q.val; omega

/-! ## What a point writes back -/

/-- The hidden rows of the region's operand arrays. -/
abbrev hiddenRows (c : Dev nD) : Fin 20000 → Fin 256 → EReal :=
  ConvGru.hidden (ConvGru.mat (V c main_arg1)) (ConvGru.mat (V c main_arg0)) (ConvGru.matT (V c main_v0)) (ConvGru.row (V c main_v1))

/-- The message rows of those hidden rows. -/
abbrev messageRows (c : Dev nD) : Fin 20000 → Fin 256 → EReal :=
  ConvGru.message (hiddenRows V c) (ConvGru.mat (V c main_arg5))

/-- Entry (p, q) of the hidden block computed at point t is the hidden row of node 1000 t + p at feature q. -/
theorem hidden_point (c : Dev nD) (t : Fin cfg0.N) (p : Fin 1000) (q : Fin 256) (P : Fin 20000)
    (hP : P.val = t.val * 1000 + p.val) :
    k0_pay1 (F := Ideal) (iblk0 V c 0 t) (iblk0 V c 1 t) (iblk0 V c 2 t) (iblk0 V c 3 t) (ix2 p q) = hiddenRows V c P q := by
  rw [hidden_block_at]
  have ex := fun k => x_block_at V c t p k P hP
  have eh := fun k => h_block_at V c t p k P hP
  have ew := fun k => w_block_at V c t k q
  simp only [ex, eh, ew, b_block_at V c t q]
  rfl

/-- Entry (p, q) of the message block computed at point t is the message row of node 1000 t + p at feature q. -/
theorem message_point (c : Dev nD) (t : Fin cfg0.N) (p : Fin 1000) (q : Fin 256) (P : Fin 20000)
    (hP : P.val = t.val * 1000 + p.val) :
    k0_pay2 (F := Ideal) (iblk0 V c 0 t) (iblk0 V c 1 t) (iblk0 V c 2 t) (iblk0 V c 3 t) (iblk0 V c 4 t) (ix2 p q)
      = messageRows V c P q := by
  rw [message_block_at]
  show _ = ∑ k : Fin 256, hiddenRows V c P k * V c main_arg5 (ix2 k q)
  refine Finset.sum_congr rfl fun k _ => ?_
  rw [hidden_point V c t p k P hP, c_block_at V c t k q]

/-- Where entry (p, q) of the first result's block at point t sits in its array. -/
theorem hidden_emb (t : Fin cfg0.N) (p : Fin 1000) (q : Fin 256) (P : Fin 20000) (hP : P.val = t.val * 1000 + p.val) :
    ((cfg0.win 5).blk t).view.emb (ix2 p q) = ix2 P q := by
  obtain ⟨-, -, -, -, -, -, -, -, -, -, e0, e1, -⟩ := block_index t
  funext a; apply Fin.ext
  match a with
  | ⟨0, _⟩ => show win0_5.index t (0 : Fin 2) * 1000 + 1 * p.val = P.val; omega
  | ⟨1, _⟩ => show win0_5.index t (1 : Fin 2) * 256 + 1 * q.val = q.val; omega

/-- Where entry (p, q) of the second result's block at point t sits in its array. -/
theorem message_emb (t : Fin cfg0.N) (p : Fin 1000) (q : Fin 256) (P : Fin 20000) (hP : P.val = t.val * 1000 + p.val) :
    ((cfg0.win 6).blk t).view.emb (ix2 p q) = ix2 P q := by
  obtain ⟨-, -, -, -, -, -, -, -, -, -, -, -, e0, e1⟩ := block_index t
  funext a; apply Fin.ext
  match a with
  | ⟨0, _⟩ => show win0_6.index t (0 : Fin 2) * 1000 + 1 * p.val = P.val; omega
  | ⟨1, _⟩ => show win0_6.index t (1 : Fin 2) * 256 + 1 * q.val = q.val; omega

/-- What point t writes back to the first result array is block t of the hidden rows. -/
theorem hidden_flushed (c : Dev nD) (t : Fin cfg0.N) :
    (dat0 (F := Ideal) V c).flushed 5 t = ((cfg0.win 5).blk t).view.read (Elt Ideal) (ConvGru.toArr (hiddenRows V c)) := by
  show (cfg0.win 5).cut (grid0.coords t) ((dat0 V c).after 5 t) = _
  rw [after0_5]
  unfold out0_5
  rw [View.canon_unit_zero zeros2]
  simp only [View.ld_unit_zero (S := S1000x256) zeros2, View.ld_unit_zero (S := S512x256) zeros2, View.ld_unit_zero (S := S1x256) zeros2]
  funext j
  obtain ⟨p, q, rfl⟩ : ∃ (p : Fin 1000) (q : Fin 256), j = ix2 p q := ⟨j 0, j 1, eq_ix2 j⟩
  have ht : t.val < 20 := t.isLt
  show k0_pay1 (F := Ideal) (iblk0 V c 0 t) (iblk0 V c 1 t) (iblk0 V c 2 t) (iblk0 V c 3 t) (ix2 p q)
    = ConvGru.toArr (hiddenRows V c) (((cfg0.win 5).blk t).view.emb (ix2 p q))
  rw [hidden_emb t p q ⟨t.val * 1000 + p.val, by omega⟩ rfl]
  exact hidden_point V c t p q _ rfl

/-- What point t writes back to the second result array is block t of the message rows. -/
theorem message_flushed (c : Dev nD) (t : Fin cfg0.N) :
    (dat0 (F := Ideal) V c).flushed 6 t = ((cfg0.win 6).blk t).view.read (Elt Ideal) (ConvGru.toArr (messageRows V c)) := by
  show (cfg0.win 6).cut (grid0.coords t) ((dat0 V c).after 6 t) = _
  rw [after0_6]
  unfold out0_6
  rw [View.canon_unit_zero zeros2]
  simp only [View.ld_unit_zero (S := S1000x256) zeros2, View.ld_unit_zero (S := S512x256) zeros2, View.ld_unit_zero (S := S1x256) zeros2,
    View.ld_unit_zero (S := S256x256) zeros2]
  funext j
  obtain ⟨p, q, rfl⟩ : ∃ (p : Fin 1000) (q : Fin 256), j = ix2 p q := ⟨j 0, j 1, eq_ix2 j⟩
  have ht : t.val < 20 := t.isLt
  show k0_pay2 (F := Ideal) (iblk0 V c 0 t) (iblk0 V c 1 t) (iblk0 V c 2 t) (iblk0 V c 3 t) (iblk0 V c 4 t) (ix2 p q)
    = ConvGru.toArr (messageRows V c) (((cfg0.win 6).blk t).view.emb (ix2 p q))
  rw [message_emb t p q ⟨t.val * 1000 + p.val, by omega⟩ rfl]
  exact message_point V c t p q _ rfl

/-! ## The row blocks cover the arrays: row r is in the block of point r / 1000 -/

theorem mem_hidden_block (t : Fin cfg0.N) (i : S20000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v6_0).slice (win0_5.rect t)).set ↔ _
  rw [View.set_slice_whole, Rect.mem_set_unit]
  exact Iff.rfl

theorem mem_message_block (t : Fin cfg0.N) (i : S20000x256.Idx) :
    i ∈ ((cfg0.win 6).blk t).view.set ↔ ∀ a : Fin 2, win0_6.index t a * S1000x256.size a ≤ (i a).val ∧ (i a).val < win0_6.index t a * S1000x256.size a + S1000x256.size a := by
  show i ∈ ((View.whole main_v6_1).slice (win0_6.rect t)).set ↔ _
  rw [View.set_slice_whole, Rect.mem_set_unit]
  exact Iff.rfl

theorem hidden_cover (i : S20000x256.Idx) :
    ∃ t : Fin cfg0.N, (cfg0.win 5).flush t = true ∧ i ∈ ((cfg0.win 5).blk t).view.set := by
  have hi0 : (i 0).val < 20000 := (i 0).isLt
  have hi1 : (i 1).val < 256 := (i 1).isLt
  obtain ⟨t, ht⟩ : ∃ t : Fin cfg0.N, t.val = (i 0).val / 1000 :=
    ⟨⟨(i 0).val / 1000, by show (i 0).val / 1000 < 20; omega⟩, rfl⟩
  obtain ⟨-, -, -, -, -, -, -, -, -, -, e0, e1, -⟩ := block_index t
  refine ⟨t, flush0_5 t, ?_⟩
  rw [mem_hidden_block]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 256 ≤ (i 1).val ∧ (i 1).val < win0_5.index t (1 : Fin 2) * 256 + 256; omega

theorem message_cover (i : S20000x256.Idx) :
    ∃ t : Fin cfg0.N, (cfg0.win 6).flush t = true ∧ i ∈ ((cfg0.win 6).blk t).view.set := by
  have hi0 : (i 0).val < 20000 := (i 0).isLt
  have hi1 : (i 1).val < 256 := (i 1).isLt
  obtain ⟨t, ht⟩ : ∃ t : Fin cfg0.N, t.val = (i 0).val / 1000 :=
    ⟨⟨(i 0).val / 1000, by show (i 0).val / 1000 < 20; omega⟩, rfl⟩
  obtain ⟨-, -, -, -, -, -, -, -, -, -, -, -, e0, e1⟩ := block_index t
  refine ⟨t, flush0_6 t, ?_⟩
  rw [mem_message_block]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 256 ≤ (i 1).val ∧ (i 1).val < win0_6.index t (1 : Fin 2) * 256 + 256; omega

/-! ## The two result arrays after the region -/

/-- After the region the first result array holds the hidden rows of the region's own operand arrays. -/
theorem hidden_array (c : Dev nD) :
    (dat0 (F := Ideal) V c).arrAt 5 cfg0.N
      = ConvGru.toArr (ConvGru.hidden (ConvGru.mat (V c main_arg1)) (ConvGru.mat (V c main_arg0))
          (ConvGru.matT (V c main_v0)) (ConvGru.row (V c main_v1))) :=
  (dat0 (F := Ideal) V c).arrAt_eq_of_cover 5 (ConvGru.toArr (hiddenRows V c)) (fun t _ => hidden_flushed V c t) hidden_cover

/-- After the region the second result array holds the message rows of those hidden rows. -/
theorem message_array (c : Dev nD) :
    (dat0 (F := Ideal) V c).arrAt 6 cfg0.N
      = ConvGru.toArr (ConvGru.message
          (ConvGru.hidden (ConvGru.mat (V c main_arg1)) (ConvGru.mat (V c main_arg0))
            (ConvGru.matT (V c main_v0)) (ConvGru.row (V c main_v1)))
          (ConvGru.mat (V c main_arg5))) :=
  (dat0 (F := Ideal) V c).arrAt_eq_of_cover 6 (ConvGru.toArr (messageRows V c)) (fun t _ => message_flushed V c t) message_cover

end Cert.KernelIdeal.FcConv

end
-- ==== Proof.GruValue.lean ====
/-
  The second kernel region, read as values: over row blocks of 1000 nodes it applies the GRU update to the hidden rows,
  with the edge aggregate as the cell's input.
-/
import proofs.«178014_j40346922778954_1_alg».proof.Proof.Gen.KernelIdeal.Frame
import proofs.«178014_j40346922778954_1_alg».proof.Proof.Spec
import proofs.«178014_j40346922778954_1_alg».proof.Proof.LibMatmulAt
import Idealize.ShloMosaic.Lib.Pipeline.Value
set_option maxRecDepth 16384

noncomputable section

namespace Cert.KernelIdeal.Gru

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## One block of rows: the body's arithmetic at an entry -/

/-- The product's dimension numbers read the left operand's row at the result's row, -/
theorem lhs_gates_0 (i : S1000x768.Idx) (q : dot_S1000x256_S256x768_S1000x768_1_0_0_1_n_n.contr.Idx) :
    (dot_S1000x256_S256x768_S1000x768_1_0_0_1_n_n.lhsIdx i q 0).val = (i 0).val := by
  unfold DotDims.lhsIdx
  rw [dif_neg (show ¬(0 : Fin S1000x256.rank) ∈ dot_S1000x256_S256x768_S1000x768_1_0_0_1_n_n.lhsBatch by decide), dif_pos (show (0 : Fin S1000x256.rank) ∈ dot_S1000x256_S256x768_S1000x768_1_0_0_1_n_n.lhsNonContracting by decide)]
  rfl
/-- its column at the summation index; -/
theorem lhs_gates_1 (i : S1000x768.Idx) (q : dot_S1000x256_S256x768_S1000x768_1_0_0_1_n_n.contr.Idx) :
    (dot_S1000x256_S256x768_S1000x768_1_0_0_1_n_n.lhsIdx i q 1).val = (q ⟨0, by decide⟩).val :=
  dot_S1000x256_S256x768_S1000x768_1_0_0_1_n_n.lhsIdx_val_of_single rfl i q
/-- the right operand's row at the summation index, -/
theorem rhs_gates_0 (i : S1000x768.Idx) (q : dot_S1000x256_S256x768_S1000x768_1_0_0_1_n_n.contr.Idx) :
    (dot_S1000x256_S256x768_S1000x768_1_0_0_1_n_n.rhsIdx i q 0).val = (q ⟨0, by decide⟩).val :=
  dot_S1000x256_S256x768_S1000x768_1_0_0_1_n_n.rhsIdx_val_of_single rfl i q
/-- and its column at the result's column. -/
theorem rhs_gates_1 (i : S1000x768.Idx) (q : dot_S1000x256_S256x768_S1000x768_1_0_0_1_n_n.contr.Idx) :
    (dot_S1000x256_S256x768_S1000x768_1_0_0_1_n_n.rhsIdx i q 1).val = (i 1).val := by
  unfold DotDims.rhsIdx
  rw [dif_neg (show ¬(1 : Fin S256x768.rank) ∈ dot_S1000x256_S256x768_S1000x768_1_0_0_1_n_n.rhsBatch by decide), dif_pos (show (1 : Fin S256x768.rank) ∈ dot_S1000x256_S256x768_S1000x768_1_0_0_1_n_n.rhsNonContracting by decide)]
  rfl

/-- The gate pre-activations of a block of 1000 rows `l`: the rows times the transposed weights `w`, plus the bias
    row `b` repeated down the block. -/
def gateBlock (l : FVec Ideal S1000x256 .f32) (w : FVec Ideal S256x768 .f32) (b : FVec Ideal S1x768 .f32) :
    FVec Ideal S1000x768 .f32 :=
  addf
    (FloatOps.matmul dot_S1000x256_S256x768_S1000x768_1_0_0_1_n_n none
      (truncf .bf16 (shapeCast S1000x256 l shapeCasts_S1000x256_S1000x256) bitsLt_bf16_f32)
      (truncf .bf16 (shapeCast S256x768 w shapeCasts_S256x768_S256x768) bitsLt_bf16_f32)
      (constant (F := Ideal) S1000x768 .f32 0x00000000#32))
    (broadcastTo S1000x768 (shapeCast S1x768 b shapeCasts_S1x768_S1x768) broadcasts_S1x768_S1000x768)

/-- Entry (p, j) of a gate block is `∑ₖ l[p, k] · w[k, j] + b[0, j]`: the narrowing of the operands is the identity on
    the extended reals and the accumulator is zero. -/
theorem gateBlock_at (l : FVec Ideal S1000x256 .f32) (w : FVec Ideal S256x768 .f32) (b : FVec Ideal S1x768 .f32)
    (p : Fin 1000) (j : Fin 768) :
    gateBlock l w b (ix2 p j) = (∑ k : Fin 256, l (ix2 p k) * w (ix2 k j)) + b (ix2 0 j) := by
  unfold gateBlock
  rw [addf_apply, shapeCast_self, shapeCast_self, shapeCast_self]
  refine congrArg₂ (· + ·) ?_ ?_
  · exact MatmulAt.matmul_zero_at dot_S1000x256_S256x768_S1000x768_1_0_0_1_n_n rfl rfl
      lhs_gates_0 lhs_gates_1 rhs_gates_0 rhs_gates_1 none
      (truncf .bf16 l bitsLt_bf16_f32) (truncf .bf16 w bitsLt_bf16_f32) p j
  · exact broadcastTo_apply b broadcasts_S1x768_S1000x768 (ix2 p j) (ix2 0 j) (fun a => match a with
      | ⟨0, _⟩ => rfl
      | ⟨1, _⟩ => rfl)

/-- The three groups of 256 among the 768 stacked gate entries, read off a block of pre-activations: the slice at
    column offset 0, 256, 512 reads column q, q + 256, q + 512. -/
theorem slice_g0 (x : FVec Ideal S1000x768 .f32) (p : Fin 1000) (q : Fin 256) :
    extractStridedSlice S1000x256 ![0, 0] x slices_S1000x768_o0_0_S1000x256 (ix2 p q) = x (ix2 p (ConvGru.g0 q)) :=
  extractStridedSlice_apply ![0, 0] x slices_S1000x768_o0_0_S1000x256 (ix2 p q) (ix2 p (ConvGru.g0 q)) (fun a => match a with
    | ⟨0, _⟩ => by show p.val = 0 + p.val; omega
    | ⟨1, _⟩ => by show q.val = 0 + q.val; omega)
theorem slice_g1 (x : FVec Ideal S1000x768 .f32) (p : Fin 1000) (q : Fin 256) :
    extractStridedSlice S1000x256 ![0, 256] x slices_S1000x768_o0_256_S1000x256 (ix2 p q) = x (ix2 p (ConvGru.g1 q)) :=
  extractStridedSlice_apply ![0, 256] x slices_S1000x768_o0_256_S1000x256 (ix2 p q) (ix2 p (ConvGru.g1 q)) (fun a => match a with
    | ⟨0, _⟩ => by show p.val = 0 + p.val; omega
    | ⟨1, _⟩ => by show q.val + 256 = 256 + q.val; omega)
theorem slice_g2 (x : FVec Ideal S1000x768 .f32) (p : Fin 1000) (q : Fin 256) :
    extractStridedSlice S1000x256 ![0, 512] x slices_S1000x768_o0_512_S1000x256 (ix2 p q) = x (ix2 p (ConvGru.g2 q)) :=
  extractStridedSlice_apply ![0, 512] x slices_S1000x768_o0_512_S1000x256 (ix2 p q) (ix2 p (ConvGru.g2 q)) (fun a => match a with
    | ⟨0, _⟩ => by show p.val = 0 + p.val; omega
    | ⟨1, _⟩ => by show q.val + 512 = 512 + q.val; omega)

/-- The body's result at row p, feature q of a block: the GRU update formula with the input gates `gi` from the
    aggregate block `a` and the state gates `gh` from the state block `h`, each read at its reset, update and
    candidate entry. The one is kept as the word the body writes. -/
theorem update_block_at (h a : Vec Ideal S1000x256 .f32) (wi : Vec Ideal S256x768 .f32) (bi : Vec Ideal S1x768 .f32)
    (wh : Vec Ideal S256x768 .f32) (bh : Vec Ideal S1x768 .f32) (p : Fin 1000) (q : Fin 256) :
    k1_pay1 (F := Ideal) h a wi bi wh bh (ix2 p q)
      = (Ideal.ofBits .f32 0x3F800000#32
            - Ideal.logistic (((∑ k : Fin 256, a (ix2 p k) * wi (ix2 k (ConvGru.g1 q))) + bi (ix2 0 (ConvGru.g1 q)))
                + ((∑ k : Fin 256, h (ix2 p k) * wh (ix2 k (ConvGru.g1 q))) + bh (ix2 0 (ConvGru.g1 q)))))
          * Ideal.tanh (((∑ k : Fin 256, a (ix2 p k) * wi (ix2 k (ConvGru.g2 q))) + bi (ix2 0 (ConvGru.g2 q)))
              + Ideal.logistic (((∑ k : Fin 256, a (ix2 p k) * wi (ix2 k (ConvGru.g0 q))) + bi (ix2 0 (ConvGru.g0 q)))
                  + ((∑ k : Fin 256, h (ix2 p k) * wh (ix2 k (ConvGru.g0 q))) + bh (ix2 0 (ConvGru.g0 q))))
                * ((∑ k : Fin 256, h (ix2 p k) * wh (ix2 k (ConvGru.g2 q))) + bh (ix2 0 (ConvGru.g2 q))))
        + Ideal.logistic (((∑ k : Fin 256, a (ix2 p k) * wi (ix2 k (ConvGru.g1 q))) + bi (ix2 0 (ConvGru.g1 q)))
              + ((∑ k : Fin 256, h (ix2 p k) * wh (ix2 k (ConvGru.g1 q))) + bh (ix2 0 (ConvGru.g1 q))))
          * h (ix2 p q) := by
  show (Ideal.ofBits .f32 0x3F800000#32
            - Ideal.logistic (extractStridedSlice S1000x256 ![0, 256] (gateBlock a wi bi) slices_S1000x768_o0_256_S1000x256 (ix2 p q)
                + extractStridedSlice S1000x256 ![0, 256] (gateBlock h wh bh) slices_S1000x768_o0_256_S1000x256 (ix2 p q)))
          * Ideal.tanh (extractStridedSlice S1000x256 ![0, 512] (gateBlock a wi bi) slices_S1000x768_o0_512_S1000x256 (ix2 p q)
              + Ideal.logistic (extractStridedSlice S1000x256 ![0, 0] (gateBlock a wi bi) slices_S1000x768_o0_0_S1000x256 (ix2 p q)
                  + extractStridedSlice S1000x256 ![0, 0] (gateBlock h wh bh) slices_S1000x768_o0_0_S1000x256 (ix2 p q))
                * extractStridedSlice S1000x256 ![0, 512] (gateBlock h wh bh) slices_S1000x768_o0_512_S1000x256 (ix2 p q))
        + Ideal.logistic (extractStridedSlice S1000x256 ![0, 256] (gateBlock a wi bi) slices_S1000x768_o0_256_S1000x256 (ix2 p q)
              + extractStridedSlice S1000x256 ![0, 256] (gateBlock h wh bh) slices_S1000x768_o0_256_S1000x256 (ix2 p q))
          * shapeCast S1000x256 h shapeCasts_S1000x256_S1000x256 (ix2 p q) = _
  rw [slice_g0, slice_g0, slice_g1, slice_g1, slice_g2, slice_g2, shapeCast_self]
  simp only [gateBlock_at]

/-- The same entry as the cell's update of whole arrays: when the state block `h` and the aggregate block `a` are rows
    [1000 T, 1000 T + 1000) of the arrays `H` and `A`, entry (p, q) of the body's result is entry (1000 T + p, q) of
    the GRU update of `H` with input `A`. -/
theorem update_block_eq (T : ℕ) (hT : T < 20)
    (H A : (⟨2, ![20000, 256]⟩ : Shape).Idx → EReal) (Wi Wh : (⟨2, ![256, 768]⟩ : Shape).Idx → EReal)
    (Bi Bh : (⟨2, ![1, 768]⟩ : Shape).Idx → EReal)
    (h a : Vec Ideal S1000x256 .f32) (wi : Vec Ideal S256x768 .f32) (bi : Vec Ideal S1x768 .f32)
    (wh : Vec Ideal S256x768 .f32) (bh : Vec Ideal S1x768 .f32)
    (hh : ∀ (p : Fin 1000) (k : Fin 256), h (ix2 p k) = H (ix2 (⟨1000 * T + p.val, by omega⟩ : Fin 20000) k))
    (ha : ∀ (p : Fin 1000) (k : Fin 256), a (ix2 p k) = A (ix2 (⟨1000 * T + p.val, by omega⟩ : Fin 20000) k))
    (hwi : wi = Wi) (hbi : bi = Bi) (hwh : wh = Wh) (hbh : bh = Bh) (p : Fin 1000) (q : Fin 256) :
    k1_pay1 (F := Ideal) h a wi bi wh bh (ix2 p q)
      = ConvGru.toArr (ConvGru.update
          (ConvGru.gates (ConvGru.mat A) (ConvGru.matT Wi) (ConvGru.row Bi))
          (ConvGru.gates (ConvGru.mat H) (ConvGru.matT Wh) (ConvGru.row Bh))
          (ConvGru.mat H)) (ix2 (⟨1000 * T + p.val, by omega⟩ : Fin 20000) q) := by
  subst hwi hbi hwh hbh
  rw [update_block_at]
  simp only [hh, ha]
  rfl

/-! ## From row blocks to the array -/

variable (V : (c : Dev nD) → (b : Ref sig .tc) → Buf (Elt Ideal) ((c : Thread nD τ).loc b))

/-- The body's accesses start at the origin of their buffers. -/
theorem origin : (![0, 0] : Fin 2 → Nat) = fun _ => 0 := funext fun a => by fin_cases a <;> rfl

/-- The windows' blocks at point `t`, decided over the grid: the state rows, the aggregate rows and the result rows are
    block `t` along the rows; the weights and the bias rows are their whole arrays. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The array the region leaves: the GRU update of the state rows it found, with the aggregate rows as input. -/
abbrev newState (c : Dev nD) : (⟨2, ![20000, 256]⟩ : Shape).Idx → EReal :=
  ConvGru.toArr (ConvGru.update
    (ConvGru.gates (ConvGru.mat (V c main_v20)) (ConvGru.matT (V c main_v2)) (ConvGru.row (V c main_v4)))
    (ConvGru.gates (ConvGru.mat (V c main_v6_0)) (ConvGru.matT (V c main_v3)) (ConvGru.row (V c main_v5)))
    (ConvGru.mat (V c main_v6_0)))

/-- What point `t` writes back is rows [1000 t, 1000 t + 1000) of the updated state. -/
theorem flushed_rows (c : Dev nD) (t : Fin cfg1.N) :
    (dat1 (F := Ideal) V c).flushed 6 t = ((cfg1.win 6).blk t).view.read (Elt Ideal) (newState V c) := by
  show (cfg1.win 6).cut (grid1.coords t) ((dat1 (F := Ideal) V c).after 6 t) = _
  rw [after1_6]
  unfold out1_6
  rw [View.canon_unit_zero origin]
  simp only [View.ld_unit_zero (S := S1000x256) origin, View.ld_unit_zero (S := S256x768) origin,
    View.ld_unit_zero (S := S1x768) origin]
  obtain ⟨e00, e01, e10, e11, e20, e21, e30, e31, e40, e41, e50, e51, e60, e61⟩ := block_index t
  have ht : t.val < 20 := N_1 ▸ t.isLt
  funext j
  obtain ⟨p, q, rfl⟩ : ∃ (p : Fin 1000) (q : Fin 256), j = ix2 p q := ⟨j 0, j 1, eq_ix2 j⟩
  have eo : ((cfg1.win 6).blk t).view.emb (ix2 p q) = ix2 (⟨1000 * t.val + p.val, by omega⟩ : Fin 20000) q := by
    funext a; apply Fin.ext
    match a with
    | ⟨0, _⟩ => show win1_6.index t (0 : Fin 2) * 1000 + 1 * p.val = 1000 * t.val + p.val; omega
    | ⟨1, _⟩ => show win1_6.index t (1 : Fin 2) * 256 + 1 * q.val = q.val; omega
  have hh : ∀ (p : Fin 1000) (k : Fin 256),
      iblk1 V c 0 t (ix2 p k) = V c main_v6_0 (ix2 (⟨1000 * t.val + p.val, by omega⟩ : Fin 20000) k) := fun p k => by
    show V c main_v6_0 (((cfg1.win 0).blk t).view.emb (ix2 p k)) = _
    refine congrArg (V c main_v6_0) (funext fun a => Fin.ext ?_)
    match a with
    | ⟨0, _⟩ => show win1_0.index t (0 : Fin 2) * 1000 + 1 * p.val = 1000 * t.val + p.val; omega
    | ⟨1, _⟩ => show win1_0.index t (1 : Fin 2) * 256 + 1 * k.val = k.val; omega
  have ha : ∀ (p : Fin 1000) (k : Fin 256),
      iblk1 V c 1 t (ix2 p k) = V c main_v20 (ix2 (⟨1000 * t.val + p.val, by omega⟩ : Fin 20000) k) := fun p k => by
    show V c main_v20 (((cfg1.win 1).blk t).view.emb (ix2 p k)) = _
    refine congrArg (V c main_v20) (funext fun a => Fin.ext ?_)
    match a with
    | ⟨0, _⟩ => show win1_1.index t (0 : Fin 2) * 1000 + 1 * p.val = 1000 * t.val + p.val; omega
    | ⟨1, _⟩ => show win1_1.index t (1 : Fin 2) * 256 + 1 * k.val = k.val; omega
  have hwi : iblk1 V c 2 t = V c main_v2 := funext fun y => by
    show V c main_v2 (((cfg1.win 2).blk t).view.emb y) = V c main_v2 y
    refine congrArg (V c main_v2) (funext fun a => Fin.ext ?_)
    match a with
    | ⟨0, _⟩ => show win1_2.index t (0 : Fin 2) * 256 + 1 * (y 0).val = (y 0).val; omega
    | ⟨1, _⟩ => show win1_2.index t (1 : Fin 2) * 768 + 1 * (y 1).val = (y 1).val; omega
  have hwh : iblk1 V c 3 t = V c main_v3 := funext fun y => by
    show V c main_v3 (((cfg1.win 3).blk t).view.emb y) = V c main_v3 y
    refine congrArg (V c main_v3) (funext fun a => Fin.ext ?_)
    match a with
    | ⟨0, _⟩ => show win1_3.index t (0 : Fin 2) * 256 + 1 * (y 0).val = (y 0).val; omega
    | ⟨1, _⟩ => show win1_3.index t (1 : Fin 2) * 768 + 1 * (y 1).val = (y 1).val; omega
  have hbi : iblk1 V c 4 t = V c main_v4 := funext fun y => by
    show V c main_v4 (((cfg1.win 4).blk t).view.emb y) = V c main_v4 y
    refine congrArg (V c main_v4) (funext fun a => Fin.ext ?_)
    match a with
    | ⟨0, _⟩ => show win1_4.index t (0 : Fin 2) * 1 + 1 * (y 0).val = (y 0).val; omega
    | ⟨1, _⟩ => show win1_4.index t (1 : Fin 2) * 768 + 1 * (y 1).val = (y 1).val; omega
  have hbh : iblk1 V c 5 t = V c main_v5 := funext fun y => by
    show V c main_v5 (((cfg1.win 5).blk t).view.emb y) = V c main_v5 y
    refine congrArg (V c main_v5) (funext fun a => Fin.ext ?_)
    match a with
    | ⟨0, _⟩ => show win1_5.index t (0 : Fin 2) * 1 + 1 * (y 0).val = (y 0).val; omega
    | ⟨1, _⟩ => show win1_5.index t (1 : Fin 2) * 768 + 1 * (y 1).val = (y 1).val; omega
  show k1_pay1 (F := Ideal) (iblk1 V c 0 t) (iblk1 V c 1 t) (iblk1 V c 2 t) (iblk1 V c 4 t) (iblk1 V c 3 t) (iblk1 V c 5 t)
      (ix2 p q) = newState V c (((cfg1.win 6).blk t).view.emb (ix2 p q))
  rw [eo]
  exact update_block_eq t.val ht (V c main_v6_0) (V c main_v20) (V c main_v2) (V c main_v3) (V c main_v4) (V c main_v5)
    (iblk1 V c 0 t) (iblk1 V c 1 t) (iblk1 V c 2 t) (iblk1 V c 4 t) (iblk1 V c 3 t) (iblk1 V c 5 t)
    hh ha hwi hbi hwh hbh p q

/-- An index of the result array is in point `t`'s block iff each coordinate is in the block's range on its axis. -/
theorem mem_rows (t : Fin cfg1.N) (i : S20000x256.Idx) :
    i ∈ ((cfg1.win 6).blk t).view.set ↔ ∀ a : Fin 2, win1_6.index t a * S1000x256.size a ≤ (i a).val
      ∧ (i a).val < win1_6.index t a * S1000x256.size a + S1000x256.size a := by
  show i ∈ ((View.whole main_v21).slice (win1_6.rect t)).set ↔ _
  rw [View.set_slice_whole, Rect.mem_set_unit]
  exact Iff.rfl

/-- Every row of the result array is written back by some point: row r by point r / 1000. -/
theorem rows_covered (i : S20000x256.Idx) :
    ∃ t : Fin cfg1.N, (cfg1.win 6).flush t = true ∧ i ∈ ((cfg1.win 6).blk t).view.set := by
  have hi0 : (i 0).val < 20000 := (i 0).isLt
  have hi1 : (i 1).val < 256 := (i 1).isLt
  have hN : (i 0).val / 1000 < cfg1.N := by rw [show cfg1.N = 20 from N_1]; omega
  obtain ⟨-, -, -, -, -, -, -, -, -, -, -, -, e60, e61⟩ := block_index ⟨(i 0).val / 1000, hN⟩
  have e60' : win1_6.index ⟨(i 0).val / 1000, hN⟩ (0 : Fin 2) = (i 0).val / 1000 := e60
  refine ⟨⟨(i 0).val / 1000, hN⟩, flush1_6 _, ?_⟩
  rw [mem_rows]
  intro a
  match a with
  | ⟨0, _⟩ =>
    show win1_6.index ⟨(i 0).val / 1000, hN⟩ (0 : Fin 2) * 1000 ≤ (i 0).val
      ∧ (i 0).val < win1_6.index ⟨(i 0).val / 1000, hN⟩ (0 : Fin 2) * 1000 + 1000
    omega
  | ⟨1, _⟩ =>
    show win1_6.index ⟨(i 0).val / 1000, hN⟩ (1 : Fin 2) * 256 ≤ (i 1).val
      ∧ (i 1).val < win1_6.index ⟨(i 0).val / 1000, hN⟩ (1 : Fin 2) * 256 + 256
    omega

/-- After the region the result array holds the updated state rows, as the GRU cell gives them from the region's own
    operand arrays: the state rows, the aggregate rows, the two transposed gate weights and the two bias rows. -/
theorem state_array (c : Dev nD) :
    (dat1 (F := Ideal) V c).arrAt 6 cfg1.N
      = ConvGru.toArr (ConvGru.update
          (ConvGru.gates (ConvGru.mat (V c main_v20)) (ConvGru.matT (V c main_v2)) (ConvGru.row (V c main_v4)))
          (ConvGru.gates (ConvGru.mat (V c main_v6_0)) (ConvGru.matT (V c main_v3)) (ConvGru.row (V c main_v5)))
          (ConvGru.mat (V c main_v6_0))) :=
  (dat1 (F := Ideal) V c).arrAt_eq_of_cover 6 (newState V c) (fun t _ => flushed_rows V c t) (rows_covered)

end Cert.KernelIdeal.Gru

end
-- ==== Proof.HostFold.lean ====
/-
  What the host operations around the two kernel regions compute: the transposed weights and the bias rows the regions
  are entered with, and, between the regions, the sum of the message rows along the graph's edges.
-/
import proofs.«178014_j40346922778954_1_alg».proof.Proof.Gen.KernelIdeal.Frame
import proofs.«178014_j40346922778954_1_alg».proof.Proof.Spec
import Idealize.ShloMosaic.Lib.Pipeline.Value
import Idealize.ShloMosaic.Lib.ValueLayout
import Idealize.ShloMosaic.Lib.StableHlo.Run
set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The edge aggregation -/

/-- Row `r` of the edge list as a vector of 320000 node numbers. -/
def edgeRow0 (E : (⟨S2x320000, .i32⟩ : BufTy).Contents (Elt Ideal)) : (⟨S320000, .i32⟩ : BufTy).Contents (Elt Ideal) :=
  shapeCast _ (extractStridedSlice S1x320000 ![0, 0] E slices_S2x320000_S1x320000_0_0) shapeCasts_S1x320000_S320000
def edgeRow1 (E : (⟨S2x320000, .i32⟩ : BufTy).Contents (Elt Ideal)) : (⟨S320000, .i32⟩ : BufTy).Contents (Elt Ideal) :=
  shapeCast _ (extractStridedSlice S1x320000 ![1, 0] E slices_S2x320000_S1x320000_1_0) shapeCasts_S1x320000_S320000

/-- Each edge's source node, a negative number counted from the end of the 20000 nodes, as a column of indices. -/
def edgeSource (E : (⟨S2x320000, .i32⟩ : BufTy).Contents (Elt Ideal)) : (⟨S320000x1, .i32⟩ : BufTy).Contents (Elt Ideal) :=
  broadcastInDim S320000x1 ![0] bcast_S320000_S320000x1_0
    (select (cmpi .slt (edgeRow0 E) (broadcastInDim S320000 ![] bcast_S_S320000 (constantI S_ 32 0#32)))
      (addi (edgeRow0 E) (broadcastInDim S320000 ![] bcast_S_S320000 (constantI S_ 32 20000#32))) (edgeRow0 E))

/-- Each edge's target node as a column of indices. -/
def edgeTarget (E : (⟨S2x320000, .i32⟩ : BufTy).Contents (Elt Ideal)) : (⟨S320000x1, .i32⟩ : BufTy).Contents (Elt Ideal) :=
  broadcastInDim S320000x1 ![0] bcast_S320000_S320000x1_0 (edgeRow1 E)

/-- The aggregate rows: into zero rows, the message row of every edge's source added onto the row of its target. -/
def aggregate (M : (⟨S20000x256, .f32⟩ : BufTy).Contents (Elt Ideal)) (E : (⟨S2x320000, .i32⟩ : BufTy).Contents (Elt Ideal)) :
    (⟨S20000x256, .f32⟩ : BufTy).Contents (Elt Ideal) :=
  Host.scatterAdd scatter_S20000x256_S320000x1_S320000x256_1_0_0_1
    (broadcastInDim S20000x256 ![] bcast_S_S20000x256 (constant (F := Ideal) S_ .f32 0x00000000#32))
    (edgeTarget E)
    (Host.gather gather_S20000x256_S320000x1_S320000x256_1_0_n_n_0_1_1256 M (edgeSource E))

/-- Over any contents, the seventeen operations between the regions leave in their last result buffer the aggregate of
    the message buffer's rows along the edge buffer's list. -/
private theorem aggregate_after (W : Valuation τ sig (Elt Ideal)) :
    StableHlo.after hostOps1 W (Proc.devRef .tc main_v20)
      = aggregate (W (Proc.devRef .tc main_v6_1)) (W (Proc.devRef .tc main_arg10)) := by
  after_results
  generalize W (Proc.devRef .tc main_v6_1) = M
  generalize W (Proc.devRef .tc main_arg10) = E
  rfl

/-! ## Transposed weights and bias rows, read at an entry -/

/-- The transposed fully connected weights read at (k, q) are the weights at (q, k). -/
theorem matT_transpose_fc (w : (⟨S256x512, .f32⟩ : BufTy).Contents (Elt Ideal)) :
    ConvGru.matT (transpose S512x256 [1, 0] w transposes_S256x512_S512x256_1_0) = ConvGru.mat w := by
  funext q k
  exact transpose_apply [1, 0] w transposes_S256x512_S512x256_1_0 (ix2 k q) (ix2 q k) (fun b => match b with
    | ⟨0, _⟩ => rfl
    | ⟨1, _⟩ => rfl)

/-- The transposed gate weights read at (k, j) are the weights at (j, k). -/
theorem matT_transpose_gate (w : (⟨S768x256, .f32⟩ : BufTy).Contents (Elt Ideal)) :
    ConvGru.matT (transpose S256x768 [1, 0] w transposes_S768x256_S256x768_1_0) = ConvGru.mat w := by
  funext j k
  exact transpose_apply [1, 0] w transposes_S768x256_S256x768_1_0 (ix2 k j) (ix2 j k) (fun b => match b with
    | ⟨0, _⟩ => rfl
    | ⟨1, _⟩ => rfl)

/-- A bias vector of 256 entries laid out as one row reads as the vector. -/
theorem row_reshape_256 (b : (⟨S256, .f32⟩ : BufTy).Contents (Elt Ideal)) :
    ConvGru.row (shapeCast S1x256 b shapeCasts_S256_S1x256) = ConvGru.vec b := by
  funext q
  exact shapeCast_apply b shapeCasts_S256_S1x256 (ix2 0 q) (ix1 q)
    (by rewrite [Shape.rowMajor_val_two, Shape.rowMajor_val_one]; show q.val = 0 * 256 + q.val; omega)

/-- A bias vector of 768 entries laid out as one row reads as the vector. -/
theorem row_reshape_768 (b : (⟨S768, .f32⟩ : BufTy).Contents (Elt Ideal)) :
    ConvGru.row (shapeCast S1x768 b shapeCasts_S768_S1x768) = ConvGru.vec b := by
  funext j
  exact shapeCast_apply b shapeCasts_S768_S1x768 (ix2 0 j) (ix1 j)
    (by rewrite [Shape.rowMajor_val_two, Shape.rowMajor_val_one]; show j.val = 0 * 768 + j.val; omega)

/-! ## The contents the regions are entered with -/

variable (m : (ℓ : Loc nD τ sig) → Buf (Elt Ideal) ℓ) (ρ : Dev nD → PrngReg)

/-- Closes "no operation of the first stretch writes this buffer": the stretch's result buffers are listed and each
    is another reference. -/
local macro "untouched0" : tactic =>
  `(tactic| (
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- The same for the second stretch. -/
local macro "untouched1" : tactic =>
  `(tactic| (
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem entry0_x (c : Dev nD) : V1 m ρ c main_arg1 = m ((c : Thread nD τ).loc main_arg1) :=
  calc W1 m ρ c (Proc.devRef .tc main_arg1)
    _ = W0 m ρ c (Proc.devRef .tc main_arg1) :=
        StableHlo.after_of_forall_not_mem (b := Proc.devRef .tc main_arg1) _ _ (List.forall_iff_forall_mem.mp (by untouched0))
    _ = m ((c : Thread nD τ).loc main_arg1) := rfl
theorem entry0_h (c : Dev nD) : V1 m ρ c main_arg0 = m ((c : Thread nD τ).loc main_arg0) :=
  calc W1 m ρ c (Proc.devRef .tc main_arg0)
    _ = W0 m ρ c (Proc.devRef .tc main_arg0) :=
        StableHlo.after_of_forall_not_mem (b := Proc.devRef .tc main_arg0) _ _ (List.forall_iff_forall_mem.mp (by untouched0))
    _ = m ((c : Thread nD τ).loc main_arg0) := rfl
theorem entry0_wfc (c : Dev nD) :
    V1 m ρ c main_v0 = transpose S512x256 [1, 0] (m ((c : Thread nD τ).loc main_arg3)) transposes_S256x512_S512x256_1_0 := by
  show StableHlo.after hostOps0 _ (Proc.devRef .tc main_v0) = _
  after_results
theorem entry0_bfc (c : Dev nD) :
    V1 m ρ c main_v1 = shapeCast S1x256 (m ((c : Thread nD τ).loc main_arg4)) shapeCasts_S256_S1x256 := by
  show StableHlo.after hostOps0 _ (Proc.devRef .tc main_v1) = _
  after_results
  rfl
theorem entry0_wconv (c : Dev nD) : V1 m ρ c main_arg5 = m ((c : Thread nD τ).loc main_arg5) :=
  calc W1 m ρ c (Proc.devRef .tc main_arg5)
    _ = W0 m ρ c (Proc.devRef .tc main_arg5) :=
        StableHlo.after_of_forall_not_mem (b := Proc.devRef .tc main_arg5) _ _ (List.forall_iff_forall_mem.mp (by untouched0))
    _ = m ((c : Thread nD τ).loc main_arg5) := rfl

/-- The second region finds the first region's hidden rows in its first operand. -/
theorem entry1_state (c : Dev nD) : V3 m ρ c main_v6_0 = (dat0 (V1 m ρ) c).arrAt 5 cfg0.N :=
  calc W3 m ρ c (Proc.devRef .tc main_v6_0)
    _ = W2 m ρ c (Proc.devRef .tc main_v6_0) :=
        StableHlo.after_of_forall_not_mem (b := Proc.devRef .tc main_v6_0) _ _ (List.forall_iff_forall_mem.mp (by untouched1))
    _ = (dat0 (V1 m ρ) c).arrAt 5 cfg0.N := W2_arr m ρ c 5
/-- The second region finds, in its second operand, the first region's message rows summed along the edges. -/
theorem entry1_aggregate (c : Dev nD) :
    V3 m ρ c main_v20 = aggregate ((dat0 (V1 m ρ) c).arrAt 6 cfg0.N) (m ((c : Thread nD τ).loc main_arg10)) := by
  -- the message rows are what the first region leaves in its seventh window
  have hM : W2 m ρ c (Proc.devRef .tc main_v6_1) = (dat0 (V1 m ρ) c).arrAt 6 cfg0.N := W2_arr m ρ c 6
  -- the edge list is as launched: neither the first stretch nor the first region writes it
  have hE : W2 m ρ c (Proc.devRef .tc main_arg10) = m ((c : Thread nD τ).loc main_arg10) :=
    calc W2 m ρ c (Proc.devRef .tc main_arg10)
      _ = W1 m ρ c (Proc.devRef .tc main_arg10) := W2_of_ne m ρ c main_arg10 (by decide)
      _ = W0 m ρ c (Proc.devRef .tc main_arg10) :=
          StableHlo.after_of_forall_not_mem (b := Proc.devRef .tc main_arg10) _ _ (List.forall_iff_forall_mem.mp (by untouched0))
      _ = m ((c : Thread nD τ).loc main_arg10) := rfl
  rw [← hM, ← hE]
  exact aggregate_after (W2 m ρ c)
theorem entry1_wih (c : Dev nD) :
    V3 m ρ c main_v2 = transpose S256x768 [1, 0] (m ((c : Thread nD τ).loc main_arg6)) transposes_S768x256_S256x768_1_0 :=
  calc W3 m ρ c (Proc.devRef .tc main_v2)
    _ = W2 m ρ c (Proc.devRef .tc main_v2) :=
        StableHlo.after_of_forall_not_mem (b := Proc.devRef .tc main_v2) _ _ (List.forall_iff_forall_mem.mp (by untouched1))
    _ = W1 m ρ c (Proc.devRef .tc main_v2) := W2_of_ne m ρ c main_v2 (by decide)
    _ = transpose S256x768 [1, 0] (m ((c : Thread nD τ).loc main_arg6)) transposes_S768x256_S256x768_1_0 := by
        show StableHlo.after hostOps0 _ (Proc.devRef .tc main_v2) = _
        after_results
theorem entry1_whh (c : Dev nD) :
    V3 m ρ c main_v3 = transpose S256x768 [1, 0] (m ((c : Thread nD τ).loc main_arg7)) transposes_S768x256_S256x768_1_0 :=
  calc W3 m ρ c (Proc.devRef .tc main_v3)
    _ = W2 m ρ c (Proc.devRef .tc main_v3) :=
        StableHlo.after_of_forall_not_mem (b := Proc.devRef .tc main_v3) _ _ (List.forall_iff_forall_mem.mp (by untouched1))
    _ = W1 m ρ c (Proc.devRef .tc main_v3) := W2_of_ne m ρ c main_v3 (by decide)
    _ = transpose S256x768 [1, 0] (m ((c : Thread nD τ).loc main_arg7)) transposes_S768x256_S256x768_1_0 := by
        show StableHlo.after hostOps0 _ (Proc.devRef .tc main_v3) = _
        after_results
theorem entry1_bih (c : Dev nD) :
    V3 m ρ c main_v4 = shapeCast S1x768 (m ((c : Thread nD τ).loc main_arg8)) shapeCasts_S768_S1x768 :=
  calc W3 m ρ c (Proc.devRef .tc main_v4)
    _ = W2 m ρ c (Proc.devRef .tc main_v4) :=
        StableHlo.after_of_forall_not_mem (b := Proc.devRef .tc main_v4) _ _ (List.forall_iff_forall_mem.mp (by untouched1))
    _ = W1 m ρ c (Proc.devRef .tc main_v4) := W2_of_ne m ρ c main_v4 (by decide)
    _ = shapeCast S1x768 (m ((c : Thread nD τ).loc main_arg8)) shapeCasts_S768_S1x768 := by
        show StableHlo.after hostOps0 _ (Proc.devRef .tc main_v4) = _
        after_results
        rfl
theorem entry1_bhh (c : Dev nD) :
    V3 m ρ c main_v5 = shapeCast S1x768 (m ((c : Thread nD τ).loc main_arg9)) shapeCasts_S768_S1x768 :=
  calc W3 m ρ c (Proc.devRef .tc main_v5)
    _ = W2 m ρ c (Proc.devRef .tc main_v5) :=
        StableHlo.after_of_forall_not_mem (b := Proc.devRef .tc main_v5) _ _ (List.forall_iff_forall_mem.mp (by untouched1))
    _ = W1 m ρ c (Proc.devRef .tc main_v5) := W2_of_ne m ρ c main_v5 (by decide)
    _ = shapeCast S1x768 (m ((c : Thread nD τ).loc main_arg9)) shapeCasts_S768_S1x768 := by
        show StableHlo.after hostOps0 _ (Proc.devRef .tc main_v5) = _
        after_results
        rfl

/-- The program's result array at the end is what the second region's write-backs leave. -/
theorem result_array (c : Dev nD) : W4 m ρ c (Proc.devRef .tc main_v21) = (dat1 (V3 m ρ) c).arrAt 6 cfg1.N :=
  W4_arr m ρ c 6

end Cert.KernelIdeal.Fold

end
-- ==== Proof.RefValue.lean ====
/-
  The reference program read stage by stage: its hidden rows, its message rows and its result are the cell's.
-/
import proofs.«178014_j40346922778954_1_alg».proof.Proof.Gen.ReferenceIdeal.Run
import proofs.«178014_j40346922778954_1_alg».proof.Proof.Gen.ReferenceIdeal.Read
import proofs.«178014_j40346922778954_1_alg».proof.Proof.Spec
import Idealize.ShloMosaic.Lib.Pipeline.Value
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 x1 : (⟨S20000x256, .f32⟩ : BufTy).Contents (Elt Ideal)) (x3 : (⟨S256x512, .f32⟩ : BufTy).Contents (Elt Ideal))
  (x4 : (⟨S256, .f32⟩ : BufTy).Contents (Elt Ideal)) (x5 : (⟨S256x256, .f32⟩ : BufTy).Contents (Elt Ideal))
  (x6 x7 : (⟨S768x256, .f32⟩ : BufTy).Contents (Elt Ideal)) (x8 x9 : (⟨S768, .f32⟩ : BufTy).Contents (Elt Ideal))
  (x10 : (⟨S2x320000, .i32⟩ : BufTy).Contents (Elt Ideal))

/-- An entry of the concatenation (x | h) along the feature axis is the joined row's entry. -/
private theorem joined_stage (P : Fin 20000) (k : Fin 512) :
    val_main_v0 (F := Ideal) x0 x1 (ix2 P k) = ConvGru.joined (ConvGru.mat x1) (ConvGru.mat x0) P k := by
  unfold val_main_v0 ConvGru.joined
  by_cases h : k.val < 256
  · rw [dif_pos h]
    exact concatenate_pair_apply_left (1 : Fin S20000x512.rank) x1 x0
      concatenates_S20000x256_S20000x256_S20000x512_d1 (ix2 P k) rfl (ix2 P ⟨k.val, h⟩)
      (fun b => match b with | ⟨0, _⟩ => rfl | ⟨1, _⟩ => rfl)
  · rw [dif_neg h]
    exact concatenate_pair_apply_right (1 : Fin S20000x512.rank) x1 x0
      concatenates_S20000x256_S20000x256_S20000x512_d1 (ix2 P k) rfl rfl (ix2 P ⟨k.val - 256, by omega⟩)
      (fun b hb => match b, hb with | ⟨0, _⟩, _ => rfl | ⟨1, _⟩, hb => absurd rfl hb)
      (by show (k.val - 256) + 256 = k.val; omega)

/-- The rectified layer at a node and a feature. -/
private theorem hidden_at (P : Fin 20000) (q : Fin 256) :
    val_main_v6 (F := Ideal) x0 x1 x3 x4 (ix2 P q)
      = ConvGru.hidden (ConvGru.mat x1) (ConvGru.mat x0) (ConvGru.mat x3) (ConvGru.vec x4) P q := by
  have e1 : ∀ k : Fin 512, lidx_main_v2 (ix2 P q) k = ix2 P k := fun k =>
    funext fun a => Fin.ext (by match a with | ⟨0, _⟩ => rfl | ⟨1, _⟩ => rfl)
  have e2 : ∀ k : Fin 512, idx_main_v1 (ridx_main_v2 (ix2 P q) k) = ix2 q k := fun k =>
    funext fun a => Fin.ext (by match a with | ⟨0, _⟩ => rfl | ⟨1, _⟩ => rfl)
  have e3 : idx_main_v3 (idx_main_v4 (ix2 P q)) = ix1 q :=
    funext fun a => Fin.ext (by match a with | ⟨0, _⟩ => rfl)
  rw [val_main_v6_apply, val_main_v5_apply, val_main_v2_apply, val_main_v4_apply, val_main_v3_apply,
    val_main_call0_v0_apply, val_main_call0_cst_apply, e3]
  simp only [val_main_v1_apply, e1, e2, joined_stage, Ideal.maximumf_def, Ideal.addf_def, Ideal.ofBits_def]
  rfl

/-- The reference's rectified fully connected layer is the hidden rows (its second argument is the input x, its first the
    state h). -/
theorem hidden_stage :
    val_main_v6 (F := Ideal) x0 x1 x3 x4
      = ConvGru.toArr (ConvGru.hidden (ConvGru.mat x1) (ConvGru.mat x0) (ConvGru.mat x3) (ConvGru.vec x4)) := by
  funext i
  obtain ⟨P, q, rfl⟩ : ∃ (P : Fin 20000) (q : Fin 256), i = ix2 P q := ⟨i 0, i 1, eq_ix2 i⟩
  exact hidden_at x0 x1 x3 x4 P q

/-- The reference's product with the convolution weights is the message rows. -/
theorem message_stage :
    val_main_v7 (F := Ideal) x0 x1 x3 x4 x5
      = ConvGru.toArr (ConvGru.message (ConvGru.hidden (ConvGru.mat x1) (ConvGru.mat x0) (ConvGru.mat x3) (ConvGru.vec x4))
          (ConvGru.mat x5)) := by
  funext i
  obtain ⟨P, q, rfl⟩ : ∃ (P : Fin 20000) (q : Fin 256), i = ix2 P q := ⟨i 0, i 1, eq_ix2 i⟩
  have e1 : ∀ k : Fin 256, lidx_main_v7 (ix2 P q) k = ix2 P k := fun k =>
    funext fun a => Fin.ext (by match a with | ⟨0, _⟩ => rfl | ⟨1, _⟩ => rfl)
  have e2 : ∀ k : Fin 256, ridx_main_v7 (ix2 P q) k = ix2 k q := fun k =>
    funext fun a => Fin.ext (by match a with | ⟨0, _⟩ => rfl | ⟨1, _⟩ => rfl)
  rw [val_main_v7_apply]
  simp only [e1, e2, hidden_at]
  rfl

/-- The gate rows of the aggregate: the product with the input weights read transposed, plus the bias. -/
private theorem gates_in_at (P : Fin 20000) (j : Fin 768) :
    val_main_v26 (F := Ideal) x0 x1 x3 x4 x5 x6 x8 x10 (ix2 P j)
      = ConvGru.gates (ConvGru.mat (val_main_v21 (F := Ideal) x0 x1 x3 x4 x5 x10)) (ConvGru.mat x6) (ConvGru.vec x8) P j := by
  have e1 : ∀ k : Fin 256, lidx_main_v23 (ix2 P j) k = ix2 P k := fun k =>
    funext fun a => Fin.ext (by match a with | ⟨0, _⟩ => rfl | ⟨1, _⟩ => rfl)
  have e2 : ∀ k : Fin 256, idx_main_v22 (ridx_main_v23 (ix2 P j) k) = ix2 j k := fun k =>
    funext fun a => Fin.ext (by match a with | ⟨0, _⟩ => rfl | ⟨1, _⟩ => rfl)
  have e3 : idx_main_v24 (idx_main_v25 (ix2 P j)) = ix1 j :=
    funext fun a => Fin.ext (by match a with | ⟨0, _⟩ => rfl)
  rw [val_main_v26_apply, val_main_v23_apply, val_main_v25_apply, val_main_v24_apply, e3]
  generalize val_main_v21 (F := Ideal) x0 x1 x3 x4 x5 x10 = A
  simp only [val_main_v22_apply, e1, e2, Ideal.addf_def]
  rfl

/-- The gate rows of the hidden state: the product with the state weights read transposed, plus the bias. -/
private theorem gates_hid_at (P : Fin 20000) (j : Fin 768) :
    val_main_v31 (F := Ideal) x0 x1 x3 x4 x7 x9 (ix2 P j)
      = ConvGru.gates (ConvGru.hidden (ConvGru.mat x1) (ConvGru.mat x0) (ConvGru.mat x3) (ConvGru.vec x4))
          (ConvGru.mat x7) (ConvGru.vec x9) P j := by
  have e1 : ∀ k : Fin 256, lidx_main_v28 (ix2 P j) k = ix2 P k := fun k =>
    funext fun a => Fin.ext (by match a with | ⟨0, _⟩ => rfl | ⟨1, _⟩ => rfl)
  have e2 : ∀ k : Fin 256, idx_main_v27 (ridx_main_v28 (ix2 P j) k) = ix2 j k := fun k =>
    funext fun a => Fin.ext (by match a with | ⟨0, _⟩ => rfl | ⟨1, _⟩ => rfl)
  have e3 : idx_main_v29 (idx_main_v30 (ix2 P j)) = ix1 j :=
    funext fun a => Fin.ext (by match a with | ⟨0, _⟩ => rfl)
  rw [val_main_v31_apply, val_main_v28_apply, val_main_v30_apply, val_main_v29_apply, e3]
  simp only [val_main_v27_apply, e1, e2, hidden_at, Ideal.addf_def]
  rfl

/-- The quotient 1 / (1 + exp (−s)), both ones written as the word of the float one, is the logistic function. -/
private theorem logistic_words (s : EReal) :
    Ideal.div (Ideal.ofBits .f32 0x3F800000#32) (Ideal.ofBits .f32 0x3F800000#32 + Ideal.exp (-s)) = Ideal.logistic s := by
  rw [Ideal.ofBits_one_f32]
  rfl

/-- The reference's result is the cell's new state, with the reference's own edge aggregate as the cell's input. -/
theorem state_stage :
    val_main_v59 (F := Ideal) x0 x1 x3 x4 x5 x6 x7 x8 x9 x10
      = ConvGru.toArr (ConvGru.cell (ConvGru.mat x1) (ConvGru.mat x0) (ConvGru.mat x3) (ConvGru.vec x4)
          (ConvGru.mat (val_main_v21 (F := Ideal) x0 x1 x3 x4 x5 x10))
          (ConvGru.mat x6) (ConvGru.mat x7) (ConvGru.vec x8) (ConvGru.vec x9)) := by
  funext i
  obtain ⟨P, q, rfl⟩ : ∃ (P : Fin 20000) (q : Fin 256), i = ix2 P q := ⟨i 0, i 1, eq_ix2 i⟩
  have s0 : idx_main_v32 (ix2 P q) = ix2 P (ConvGru.g0 q) :=
    funext fun a => Fin.ext (by match a with | ⟨0, _⟩ => rfl | ⟨1, _⟩ => rfl)
  have s1 : idx_main_v33 (ix2 P q) = ix2 P (ConvGru.g1 q) :=
    funext fun a => Fin.ext (by match a with | ⟨0, _⟩ => rfl | ⟨1, _⟩ => exact Nat.add_comm 256 q.val)
  have s2 : idx_main_v34 (ix2 P q) = ix2 P (ConvGru.g2 q) :=
    funext fun a => Fin.ext (by match a with | ⟨0, _⟩ => rfl | ⟨1, _⟩ => exact Nat.add_comm 512 q.val)
  have t0 : idx_main_v35 (ix2 P q) = ix2 P (ConvGru.g0 q) :=
    funext fun a => Fin.ext (by match a with | ⟨0, _⟩ => rfl | ⟨1, _⟩ => rfl)
  have t1 : idx_main_v36 (ix2 P q) = ix2 P (ConvGru.g1 q) :=
    funext fun a => Fin.ext (by match a with | ⟨0, _⟩ => rfl | ⟨1, _⟩ => exact Nat.add_comm 256 q.val)
  have t2 : idx_main_v37 (ix2 P q) = ix2 P (ConvGru.g2 q) :=
    funext fun a => Fin.ext (by match a with | ⟨0, _⟩ => rfl | ⟨1, _⟩ => exact Nat.add_comm 512 q.val)
  simp only [val_main_v59_apply, val_main_v58_apply, val_main_v57_apply, val_main_v56_apply, val_main_v55_apply,
    val_main_cst_5_apply, val_main_v54_apply, val_main_v53_apply, val_main_v52_apply, val_main_v51_apply,
    val_main_v50_apply, val_main_cst_4_apply, val_main_v49_apply, val_main_v48_apply, val_main_cst_3_apply,
    val_main_v47_apply, val_main_v46_apply, val_main_v45_apply, val_main_v44_apply, val_main_v43_apply,
    val_main_cst_2_apply, val_main_v42_apply, val_main_v41_apply, val_main_cst_1_apply, val_main_v40_apply,
    val_main_v39_apply, val_main_v38_apply, val_main_v37_apply, val_main_v36_apply, val_main_v35_apply,
    val_main_v34_apply, val_main_v33_apply, val_main_v32_apply, s0, s1, s2, t0, t1, t2,
    gates_in_at, gates_hid_at, hidden_at,
    Ideal.addf_def, Ideal.subf_def, Ideal.mulf_def, Ideal.hostDivf_def, Ideal.hostUnary_exp_def,
    Ideal.hostUnary_tanh_def, Ideal.hostNegf_def, Ideal.negf_def, Ideal.ofBits_def, logistic_words]
  generalize val_main_v21 (F := Ideal) x0 x1 x3 x4 x5 x10 = A
  rfl

end Cert.ReferenceIdeal.RefValue

end
-- ==== Proof.Bridge.lean ====
/-
  The two programs compute one function. The kernel program's result array, followed through its two regions and the
  host operations between them, and the reference's result, followed through its stages, are both the graph-convolution
  GRU cell of the argument arrays, with the messages summed along the edges by the same host operations.
-/
import proofs.«178014_j40346922778954_1_alg».proof.Proof.KernelRun
import proofs.«178014_j40346922778954_1_alg».proof.Proof.FcConvValue
import proofs.«178014_j40346922778954_1_alg».proof.Proof.GruValue
import proofs.«178014_j40346922778954_1_alg».proof.Proof.HostFold
import proofs.«178014_j40346922778954_1_alg».proof.Proof.RefValue

set_option maxRecDepth 16384

noncomputable section

namespace Cert.Bridge

open Idealize.ShloMosaic Idealize.ShloMosaic.TcCoe Idealize.ShloMosaic.ValueIdx Idealize.SL.Sem

section Kernel
open Cert.KernelIdeal Cert.KernelIdeal.Gen

/-- The new state rows as one function of the ten argument arrays the programs read: the cell of the input rows `ax`, the
    state rows `ah`, the layer's weights and bias, the convolution weights, the gate weights and biases, with the message
    rows summed along the edge list `ae` as the cell's input. -/
def newState (ah ax : (⟨S20000x256, .f32⟩ : BufTy).Contents (Elt Ideal)) (wfc : (⟨S256x512, .f32⟩ : BufTy).Contents (Elt Ideal))
    (bfc : (⟨S256, .f32⟩ : BufTy).Contents (Elt Ideal)) (wc : (⟨S256x256, .f32⟩ : BufTy).Contents (Elt Ideal))
    (wih whh : (⟨S768x256, .f32⟩ : BufTy).Contents (Elt Ideal)) (bih bhh : (⟨S768, .f32⟩ : BufTy).Contents (Elt Ideal))
    (ae : (⟨S2x320000, .i32⟩ : BufTy).Contents (Elt Ideal)) : (⟨S20000x256, .f32⟩ : BufTy).Contents (Elt Ideal) :=
  ConvGru.toArr (ConvGru.cell (ConvGru.mat ax) (ConvGru.mat ah) (ConvGru.mat wfc) (ConvGru.vec bfc)
    (ConvGru.mat (Cert.KernelIdeal.Fold.aggregate
      (ConvGru.toArr (ConvGru.message (ConvGru.hidden (ConvGru.mat ax) (ConvGru.mat ah) (ConvGru.mat wfc) (ConvGru.vec bfc)) (ConvGru.mat wc))) ae))
    (ConvGru.mat wih) (ConvGru.mat whh) (ConvGru.vec bih) (ConvGru.vec bhh))

variable (m : (ℓ : Loc nD τ sig) → Buf (Elt Ideal) ℓ) (ρ : Dev nD → PrngReg)

/-- The kernel program's result array at the end of its run is the new state of its argument arrays: the second region's
    write-backs are the GRU update of its operands, which are the first region's hidden rows, the edge sum of its message
    rows, and the transposed weights and bias rows the host prepared. -/
theorem kernel_result (c : Dev nD) :
    W4 m ρ c (Proc.devRef .tc main_v21)
      = newState (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) := by
  rw [Fold.result_array, Gru.state_array (V3 m ρ) c, Fold.entry1_state, Fold.entry1_aggregate, Fold.entry1_wih, Fold.entry1_whh,
    Fold.entry1_bih, Fold.entry1_bhh, FcConv.hidden_array (V1 m ρ) c, FcConv.message_array (V1 m ρ) c, Fold.entry0_x, Fold.entry0_h,
    Fold.entry0_wfc, Fold.entry0_bfc, Fold.entry0_wconv, Fold.matT_transpose_fc, Fold.matT_transpose_gate, Fold.matT_transpose_gate,
    Fold.row_reshape_256, Fold.row_reshape_768, Fold.row_reshape_768, ConvGru.mat_toArr]
  rfl

end Kernel

section Reference
open Cert.ReferenceIdeal Cert.ReferenceIdeal.Gen Cert.ReferenceIdeal.Read

/-- The reference sums its message rows along the edges by the very operations the kernel program's host side uses. -/
theorem aggregate_agrees (x0 x1 : (⟨S20000x256, .f32⟩ : BufTy).Contents (Elt Ideal)) (x3 : (⟨S256x512, .f32⟩ : BufTy).Contents (Elt Ideal))
    (x4 : (⟨S256, .f32⟩ : BufTy).Contents (Elt Ideal)) (x5 : (⟨S256x256, .f32⟩ : BufTy).Contents (Elt Ideal))
    (x10 : (⟨S2x320000, .i32⟩ : BufTy).Contents (Elt Ideal)) :
    val_main_v21 (F := Ideal) x0 x1 x3 x4 x5 x10
      = Cert.KernelIdeal.Fold.aggregate (val_main_v7 (F := Ideal) x0 x1 x3 x4 x5) x10 := by
  unfold val_main_v21 val_main_v18
  generalize val_main_v7 (F := Ideal) x0 x1 x3 x4 x5 = M
  rfl

/-- The reference's result is the new state of its argument arrays. -/
theorem reference_result (m : (ℓ : Loc nD τ sig) → Buf (Elt Ideal) ℓ) (c : Dev nD) :
    Cert.ReferenceIdeal.Value.res_main_v59 m c
      = newState (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) := by
  rw [val_main_v59_eq, Cert.ReferenceIdeal.RefValue.state_stage, aggregate_agrees, Cert.ReferenceIdeal.RefValue.message_stage]
  rfl

end Reference

end Cert.Bridge

end
-- ==== Proof.lean ====
/-
  A graph-convolution GRU cell over 20000 nodes with 256 features, as two row-blocked kernel regions with the edge
  aggregation on the host between them, against the same cell written with whole-array operations.

  Over the extended reals both programs compute, for every node P and feature q,
      xr_P = max ((x_P | h_P) · Wfcᵀ + bfc, 0),   m_P = xr_P · Wconv,   a = the message rows summed along the edges,
      gi = a_P · Wihᵀ + bih,   gh = xr_P · Whhᵀ + bhh,
      r = σ(gi₀ + gh₀),   z = σ(gi₁ + gh₁),   n = tanh(gi₂ + r · gh₂),   h'_P = (1 − z) · n + z · xr_P.
  The kernel computes the hidden and message rows 1000 rows at a time (each row's sums run over the whole contracted
  axis, so no sum is regrouped), the reference all at once; the kernel's sigmoid is one operation where the reference
  spells 1 / (1 + e⁻ˢ), which is that operation's definition over the extended reals; a change of float format is the
  identity there. The edge aggregation is the same chain of host operations in both programs and is never opened. No
  law used needs the inputs finite, so the precondition is not opened either.

  The kernel program's run with its result named is KernelRun.lean; its two regions read as values are FcConvValue.lean
  and GruValue.lean, the host operations around them HostFold.lean; the reference read stage by stage is RefValue.lean;
  Bridge.lean joins the two sides in one function of the argument arrays.
-/
import proofs.«178014_j40346922778954_1_alg».proof.Defs
import proofs.«178014_j40346922778954_1_alg».proof.Proof.Gen.Kernel
import proofs.«178014_j40346922778954_1_alg».proof.Proof.Gen.Kernel.Skeleton
import proofs.«178014_j40346922778954_1_alg».proof.Proof.Gen.Kernel.Launch
import proofs.«178014_j40346922778954_1_alg».proof.Proof.Gen.Kernel.Points
import proofs.«178014_j40346922778954_1_alg».proof.Proof.Gen.Kernel.Frame
import proofs.«178014_j40346922778954_1_alg».proof.Proof.Gen.KernelIdeal
import proofs.«178014_j40346922778954_1_alg».proof.Proof.Gen.KernelIdeal.Skeleton
import proofs.«178014_j40346922778954_1_alg».proof.Proof.Gen.KernelIdeal.Launch
import proofs.«178014_j40346922778954_1_alg».proof.Proof.Gen.KernelIdeal.Points
import proofs.«178014_j40346922778954_1_alg».proof.Proof.Gen.KernelIdeal.Frame
import proofs.«178014_j40346922778954_1_alg».proof.Proof.Gen.ReferenceIdeal
import proofs.«178014_j40346922778954_1_alg».proof.Proof.Gen.ReferenceIdeal.Run
import proofs.«178014_j40346922778954_1_alg».proof.Proof.Gen.Pre_finite_inputs
import proofs.«178014_j40346922778954_1_alg».proof.Proof.Bridge
import Idealize.ShloMosaic.Adequacy
import Idealize.ShloMosaic.Init

noncomputable section

namespace Cert.Proof

open Idealize.ShloMosaic Idealize.SL.Sem

/-- The kernel program as printed terminates without a fault and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference's run, with its result dropped, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the printed kernel's own text: no operation was rewritten. -/
theorem preserves : Cert.preserves_Kernel_KernelIdeal := trivial

/-- From memories that agree on the arguments both programs end with the new state of those arguments in their result
    arrays: the kernel's by its two regions and the host operations between them, the reference's by its stages. -/
theorem algebraic : Cert.algebraic_KernelIdeal_ReferenceIdeal := by
  intro m ρ m' ρ' _ hagree
  refine ⟨fun c => Cert.Bridge.newState
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Bridge.kernel_result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.Bridge.reference_result, e0, e1, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
